-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x2000000 : Shape := ⟨2, ![2, 2000000]⟩
abbrev S8x32 : Shape := ⟨2, ![8, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x8 .f32) (main_arg1 : IVec S2x2000000 32) (main_arg2 : FVec F S8x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x32 .f32 := Host.absf main_arg2
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x8 : Shape := ⟨2, ![100000, 8]⟩
abbrev S2x2000000 : Shape := ⟨2, ![2, 2000000]⟩
abbrev S8x32 : Shape := ⟨2, ![8, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x2000000 : Shape := ⟨2, ![1, 2000000]⟩
abbrev S2000000 : Shape := ⟨1, ![2000000]⟩
abbrev S2100000 : Shape := ⟨1, ![2100000]⟩
abbrev S_ : Shape := ⟨0, ![]⟩
abbrev S2100000x1 : Shape := ⟨2, ![2100000, 1]⟩
abbrev S100000x32 : Shape := ⟨2, ![100000, 32]⟩
abbrev S2000x8 : Shape := ⟨2, ![2000, 8]⟩
abbrev S2000x32 : Shape := ⟨2, ![2000, 32]⟩
abbrev S2100000x32 : Shape := ⟨2, ![2100000, 32]⟩
abbrev S1x32 : Shape := ⟨2, ![1, 32]⟩
abbrev S1x1 : Shape := ⟨2, ![1, 1]⟩
abbrev S100000x1 : Shape := ⟨2, ![100000, 1]⟩
abbrev S2000x1 : Shape := ⟨2, ![2000, 1]⟩

abbrev nBuf : Space → Nat
  | .hbm => 89
  | .vmem => 18
  | .smem => 0
  | _ => 0

abbrev bufTy : (tb : Table) → Fin (tcTables nBuf tb) → BufTy
  | .hbm, ⟨0, _⟩ => ⟨S100000x8, .f32⟩
  | .hbm, ⟨1, _⟩ => ⟨S2x2000000, .i32⟩
  | .hbm, ⟨2, _⟩ => ⟨S8x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x2000000, .i32⟩
  | .hbm, ⟨10, _⟩ => ⟨S2000000, .i32⟩
  | .hbm, ⟨11, _⟩ => ⟨S2100000, .i32⟩
  | .hbm, ⟨12, _⟩ => ⟨S1x2000000, .i32⟩
  | .hbm, ⟨13, _⟩ => ⟨S2000000, .i32⟩
  | .hbm, ⟨14, _⟩ => ⟨S2100000, .i32⟩
  | .hbm, ⟨15, _⟩ => ⟨S_, .f32⟩
  | .hbm, ⟨16, _⟩ => ⟨S2100000, .f32⟩
  | .hbm, ⟨17, _⟩ => ⟨S_, .f32⟩
  | .hbm, ⟨18, _⟩ => ⟨S100000, .f32⟩
  | .hbm, ⟨19, _⟩ => ⟨S2100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S2100000, .i32⟩
  | .hbm, ⟨34, _⟩ => ⟨S2100000, .i1⟩
  | .hbm, ⟨35, _⟩ => ⟨S_, .i32⟩
  | .hbm, ⟨36, _⟩ => ⟨S2100000, .i32⟩
  | .hbm, ⟨37, _⟩ => ⟨S2100000, .i32⟩
  | .hbm, ⟨38, _⟩ => ⟨S2100000, .i32⟩
  | .hbm, ⟨39, _⟩ => ⟨S2100000x1, .i32⟩
  | .hbm, ⟨40, _⟩ => ⟨S2100000, .f32⟩
  | .hbm, ⟨41, _⟩ => ⟨S_, .i32⟩
  | .hbm, ⟨42, _⟩ => ⟨S2100000, .i32⟩
  | .hbm, ⟨43, _⟩ => ⟨S2100000, .i1⟩
  | .hbm, ⟨44, _⟩ => ⟨S_, .i32⟩
  | .hbm, ⟨45, _⟩ => ⟨S2100000, .i32⟩
  | .hbm, ⟨46, _⟩ => ⟨S2100000, .i32⟩
  | .hbm, ⟨47, _⟩ => ⟨S2100000, .i32⟩
  | .hbm, ⟨48, _⟩ => ⟨S2100000x1, .i32⟩
  | .hbm, ⟨49, _⟩ => ⟨S2100000, .f32⟩
  | .hbm, ⟨50, _⟩ => ⟨S2100000, .f32⟩
  | .hbm, ⟨51, _⟩ => ⟨S100000x32, .f32⟩
  | .hbm, ⟨52, _⟩ => ⟨S_, .i32⟩
  | .hbm, ⟨53, _⟩ => ⟨S2100000, .i32⟩
  | .hbm, ⟨54, _⟩ => ⟨S2100000, .i1⟩
  | .hbm, ⟨55, _⟩ => ⟨S_, .i32⟩
  | .hbm, ⟨56, _⟩ => ⟨S2100000, .i32⟩
  | .hbm, ⟨57, _⟩ => ⟨S2100000, .i32⟩
  | .hbm, ⟨58, _⟩ => ⟨S2100000, .i32⟩
  | .hbm, ⟨59, _⟩ => ⟨S2100000x1, .i32⟩
  | .hbm, ⟨60, _⟩ => ⟨S2100000x32, .f32⟩
  | .hbm, ⟨61, _⟩ => ⟨S2100000x1, .f32⟩
  | .hbm, ⟨62, _⟩ => ⟨S2100000x32, .f32⟩
  | .hbm, ⟨63, _⟩ => ⟨S2100000x32, .f32⟩
  | .hbm, ⟨64, _⟩ => ⟨S_, .f32⟩
  | .hbm, ⟨65, _⟩ => ⟨S100000x32, .f32⟩
  | .hbm, ⟨66, _⟩ => ⟨S2100000x1, .i32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S_, .i32⟩
  | .hbm, ⟨71, _⟩ => ⟨S2100000, .i32⟩
  | .hbm, ⟨72, _⟩ => ⟨S2100000, .i1⟩
  | .hbm, ⟨73, _⟩ => ⟨S_, .i32⟩
  | .hbm, ⟨74, _⟩ => ⟨S2100000, .i32⟩
  | .hbm, ⟨75, _⟩ => ⟨S2100000, .i32⟩
  | .hbm, ⟨76, _⟩ => ⟨S2100000, .i32⟩
  | .hbm, ⟨77, _⟩ => ⟨S2100000x1, .i32⟩
  | .hbm, ⟨78, _⟩ => ⟨S2100000x32, .f32⟩
  | .hbm, ⟨79, _⟩ => ⟨S2100000x1, .f32⟩
  | .hbm, ⟨80, _⟩ => ⟨S2100000x32, .f32⟩
  | .hbm, ⟨81, _⟩ => ⟨S2100000x32, .f32⟩
  | .hbm, ⟨82, _⟩ => ⟨S_, .f32⟩
  | .hbm, ⟨83, _⟩ => ⟨S100000x32, .f32⟩
  | .hbm, ⟨84, _⟩ => ⟨S2100000x1, .i32⟩
  | .hbm, ⟨85, _⟩ => ⟨S100000x32, .f32⟩
  | .hbm, ⟨86, _⟩ => ⟨S1x32, .f32⟩
  | .hbm, ⟨87, _⟩ => ⟨S1x1, .f32⟩
  | .hbm, ⟨88, _⟩ => ⟨S100000x1, .f32⟩
  | .local _ .vmem, ⟨0, _⟩ => ⟨S2000x8, .f32⟩
  | .local _ .vmem, ⟨1, _⟩ => ⟨S2000x8, .f32⟩
  | .local _ .vmem, ⟨2, _⟩ => ⟨S8x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S1x32, .f32⟩
  | .local _ .vmem, ⟨8, _⟩ => ⟨S32x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S1x32, .f32⟩
  | .local _ .vmem, ⟨14, _⟩ => ⟨S32x1, .f32⟩
  | .local _ .vmem, ⟨15, _⟩ => ⟨S1x1, .f32⟩
  | .local _ .vmem, ⟨16, _⟩ => ⟨S2000x1, .f32⟩
  | .local _ .vmem, ⟨17, _⟩ => ⟨S2000x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S2100000 : S_.BroadcastsInDim S2100000 (![] : Fin 0 → Fin S2100000.rank)
  bcast_S_S100000 : S_.BroadcastsInDim S100000 (![] : Fin 0 → Fin S100000.rank)
  bcast_S2100000_S2100000x1_0 : S2100000.BroadcastsInDim S2100000x1 (![0] : Fin 1 → Fin S2100000x1.rank)
  inb_S2000x8_S2000x8_0_0 : ∀ a, (![0, 0] : Fin 2 → Nat) a + S2000x8.size a ≤ S2000x8.size a
  h_S2000x8 : 0 < S2000x8.numel
  inb_S8x32_S8x32_0_0 : ∀ a, (![0, 0] : Fin 2 → Nat) a + S8x32.size a ≤ S8x32.size a
  h_S8x32 : 0 < S8x32.numel
  inb_S2000x32_S2000x32_0_0 : ∀ a, (![0, 0] : Fin 2 → Nat) a + S2000x32.size a ≤ S2000x32.size a
  h_S2000x32 : 0 < S2000x32.numel
  bcast_S2100000x1_S2100000x32_0_1 : S2100000x1.BroadcastsInDim S2100000x32 (![0, 1] : Fin 2 → Fin S2100000x32.rank)
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x32_S32x32_0_0 : ∀ a, (![0, 0] : Fin 2 → Nat) a + S32x32.size a ≤ S32x32.size a
  h_S32x32 : 0 < S32x32.numel
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  dot_S2000x8_S8x32_S2000x32_1_0_0_1_n_n_wf : DotDims.WF S2000x8 S8x32 S2000x32 [1] [0] [0] [1] [] []
  gather_S100000x32_S2100000x1_S2100000x32_1_0_n_n_0_1_132_wf : GatherDims.WF S100000x32 S2100000x1 S2100000x32 [1] [0] [] [0] [] 1 ![1, 32]
  scatter_S100000x32_S2100000x1_S2100000x32_1_0_0_1_wf : ScatterDims.WF S100000x32 S2100000x1 S2100000x32 [1] [0] [0] 1
  dot_S2000x32_S32x32_S2000x32_1_0_0_1_n_n_wf : DotDims.WF S2000x32 S32x32 S2000x32 [1] [0] [0] [1] [] []
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S100000x8.size a
  hwx0_0 : ∀ i : grid0.Coords, EltTy.bits .f32 = 32 ∨ (Rect.block (s := S100000x8) S2000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S8x32.size a
  hwx0_1 : ∀ i : grid0.Coords, EltTy.bits .f32 = 32 ∨ (Rect.block (s := S8x32) S8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1.size a ≤ S32x1.size a
  hwx2_2 : ∀ i : grid2.Coords, EltTy.bits .f32 = 32 ∨ (Rect.block (s := S32x1) S32x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S100000x1.size a
  hwx2_4 : ∀ i : grid2.Coords, EltTy.bits .f32 = 32 ∨ (Rect.block (s := S100000x1) S2000x1.size (cc2_transform_4 i) (hinb2_4 i)).WholeWords (EltTy.packing .f32)

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def dot_S2000x8_S8x32_S2000x32_1_0_0_1_n_n : DotDims S2000x8 S8x32 S2000x32 where
  lhsContracting := [1]
  rhsContracting := [0]
  lhsNonContracting := [0]
  rhsNonContracting := [1]
  lhsBatch := []
  rhsBatch := []
  wf := dot_S2000x8_S8x32_S2000x32_1_0_0_1_n_n_wf
def gather_S100000x32_S2100000x1_S2100000x32_1_0_n_n_0_1_132 : GatherDims S100000x32 S2100000x1 S2100000x32 where
  offsetDims := [1]
  collapsedSliceDims := [0]
  operandBatchingDims := []
  startIndicesBatchingDims := []
  startIndexMap := [0]
  indexVectorDim := 1
  sliceSizes := ![1, 32]
  wf := gather_S100000x32_S2100000x1_S2100000x32_1_0_n_n_0_1_132_wf
def scatter_S100000x32_S2100000x1_S2100000x32_1_0_0_1 : ScatterDims S100000x32 S2100000x1 S2100000x32 where
  updateWindowDims := [1]
  insertedWindowDims := [0]
  scatterDimsToOperandDims := [0]
  indexVectorDim := 1
  wf := scatter_S100000x32_S2100000x1_S2100000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_arg0) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S2000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x8 : Shape := ⟨2, ![100000, 8]⟩
abbrev S2x2000000 : Shape := ⟨2, ![2, 2000000]⟩
abbrev S8x32 : Shape := ⟨2, ![8, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x2000000 : Shape := ⟨2, ![1, 2000000]⟩
abbrev S2000000 : Shape := ⟨1, ![2000000]⟩
abbrev S2100000 : Shape := ⟨1, ![2100000]⟩
abbrev S_ : Shape := ⟨0, ![]⟩
abbrev S2100000x1 : Shape := ⟨2, ![2100000, 1]⟩
abbrev S100000x32 : Shape := ⟨2, ![100000, 32]⟩
abbrev S2100000x32 : Shape := ⟨2, ![2100000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x2000000, .i32⟩
  | .hbm, ⟨2, _⟩ => ⟨S8x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x2000000, .i32⟩
  | .hbm, ⟨10, _⟩ => ⟨S2000000, .i32⟩
  | .hbm, ⟨11, _⟩ => ⟨S2100000, .i32⟩
  | .hbm, ⟨12, _⟩ => ⟨S1x2000000, .i32⟩
  | .hbm, ⟨13, _⟩ => ⟨S2000000, .i32⟩
  | .hbm, ⟨14, _⟩ => ⟨S2100000, .i32⟩
  | .hbm, ⟨15, _⟩ => ⟨S_, .f32⟩
  | .hbm, ⟨16, _⟩ => ⟨S2100000, .f32⟩
  | .hbm, ⟨17, _⟩ => ⟨S_, .f32⟩
  | .hbm, ⟨18, _⟩ => ⟨S100000, .f32⟩
  | .hbm, ⟨19, _⟩ => ⟨S2100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S2100000, .i32⟩
  | .hbm, ⟨34, _⟩ => ⟨S2100000, .i1⟩
  | .hbm, ⟨35, _⟩ => ⟨S_, .i32⟩
  | .hbm, ⟨36, _⟩ => ⟨S2100000, .i32⟩
  | .hbm, ⟨37, _⟩ => ⟨S2100000, .i32⟩
  | .hbm, ⟨38, _⟩ => ⟨S2100000, .i32⟩
  | .hbm, ⟨39, _⟩ => ⟨S2100000x1, .i32⟩
  | .hbm, ⟨40, _⟩ => ⟨S2100000, .f32⟩
  | .hbm, ⟨41, _⟩ => ⟨S_, .i32⟩
  | .hbm, ⟨42, _⟩ => ⟨S2100000, .i32⟩
  | .hbm, ⟨43, _⟩ => ⟨S2100000, .i1⟩
  | .hbm, ⟨44, _⟩ => ⟨S_, .i32⟩
  | .hbm, ⟨45, _⟩ => ⟨S2100000, .i32⟩
  | .hbm, ⟨46, _⟩ => ⟨S2100000, .i32⟩
  | .hbm, ⟨47, _⟩ => ⟨S2100000, .i32⟩
  | .hbm, ⟨48, _⟩ => ⟨S2100000x1, .i32⟩
  | .hbm, ⟨49, _⟩ => ⟨S2100000, .f32⟩
  | .hbm, ⟨50, _⟩ => ⟨S2100000, .f32⟩
  | .hbm, ⟨51, _⟩ => ⟨S100000x32, .f32⟩
  | .hbm, ⟨52, _⟩ => ⟨S_, .i32⟩
  | .hbm, ⟨53, _⟩ => ⟨S2100000, .i32⟩
  | .hbm, ⟨54, _⟩ => ⟨S2100000, .i1⟩
  | .hbm, ⟨55, _⟩ => ⟨S_, .i32⟩
  | .hbm, ⟨56, _⟩ => ⟨S2100000, .i32⟩
  | .hbm, ⟨57, _⟩ => ⟨S2100000, .i32⟩
  | .hbm, ⟨58, _⟩ => ⟨S2100000, .i32⟩
  | .hbm, ⟨59, _⟩ => ⟨S2100000x1, .i32⟩
  | .hbm, ⟨60, _⟩ => ⟨S2100000x32, .f32⟩
  | .hbm, ⟨61, _⟩ => ⟨S2100000x1, .f32⟩
  | .hbm, ⟨62, _⟩ => ⟨S2100000x32, .f32⟩
  | .hbm, ⟨63, _⟩ => ⟨S2100000x32, .f32⟩
  | .hbm, ⟨64, _⟩ => ⟨S_, .f32⟩
  | .hbm, ⟨65, _⟩ => ⟨S100000x32, .f32⟩
  | .hbm, ⟨66, _⟩ => ⟨S2100000x1, .i32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S_, .f32⟩
  | .hbm, ⟨72, _⟩ => ⟨S100000x32, .f32⟩
  | .hbm, ⟨73, _⟩ => ⟨S100000x32, .f32⟩
  | .hbm, ⟨74, _⟩ => ⟨S100000x32, .f32⟩
  | .hbm, ⟨75, _⟩ => ⟨S_, .i32⟩
  | .hbm, ⟨76, _⟩ => ⟨S2100000, .i32⟩
  | .hbm, ⟨77, _⟩ => ⟨S2100000, .i1⟩
  | .hbm, ⟨78, _⟩ => ⟨S_, .i32⟩
  | .hbm, ⟨79, _⟩ => ⟨S2100000, .i32⟩
  | .hbm, ⟨80, _⟩ => ⟨S2100000, .i32⟩
  | .hbm, ⟨81, _⟩ => ⟨S2100000, .i32⟩
  | .hbm, ⟨82, _⟩ => ⟨S2100000x1, .i32⟩
  | .hbm, ⟨83, _⟩ => ⟨S2100000x32, .f32⟩
  | .hbm, ⟨84, _⟩ => ⟨S2100000x1, .f32⟩
  | .hbm, ⟨85, _⟩ => ⟨S2100000x32, .f32⟩
  | .hbm, ⟨86, _⟩ => ⟨S2100000x32, .f32⟩
  | .hbm, ⟨87, _⟩ => ⟨S_, .f32⟩
  | .hbm, ⟨88, _⟩ => ⟨S100000x32, .f32⟩
  | .hbm, ⟨89, _⟩ => ⟨S2100000x1, .i32⟩
  | .hbm, ⟨90, _⟩ => ⟨S100000x32, .f32⟩
  | .hbm, ⟨91, _⟩ => ⟨S1x32, .f32⟩
  | .hbm, ⟨92, _⟩ => ⟨S100000x32, .f32⟩
  | .hbm, ⟨93, _⟩ => ⟨S100000x32, .f32⟩
  | .hbm, ⟨94, _⟩ => ⟨S_, .f32⟩
  | .hbm, ⟨95, _⟩ => ⟨S100000x32, .f32⟩
  | .hbm, ⟨96, _⟩ => ⟨S100000x32, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S2100000 : S_.BroadcastsInDim S2100000 (![] : Fin 0 → Fin S2100000.rank)
  bcast_S_S100000 : S_.BroadcastsInDim S100000 (![] : Fin 0 → Fin S100000.rank)
  bcast_S2100000_S2100000x1_0 : S2100000.BroadcastsInDim S2100000x1 (![0] : Fin 1 → Fin S2100000x1.rank)
  bcast_S2100000x1_S2100000x32_0_1 : S2100000x1.BroadcastsInDim S2100000x32 (![0, 1] : Fin 2 → Fin S2100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  dot_S100000x8_S8x32_S100000x32_1_0_0_1_n_n_wf : DotDims.WF S100000x8 S8x32 S100000x32 [1] [0] [0] [1] [] []
  gather_S100000x32_S2100000x1_S2100000x32_1_0_n_n_0_1_132_wf : GatherDims.WF S100000x32 S2100000x1 S2100000x32 [1] [0] [] [0] [] 1 ![1, 32]
  scatter_S100000x32_S2100000x1_S2100000x32_1_0_0_1_wf : ScatterDims.WF S100000x32 S2100000x1 S2100000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def dot_S100000x8_S8x32_S100000x32_1_0_0_1_n_n : DotDims S100000x8 S8x32 S100000x32 where
  lhsContracting := [1]
  rhsContracting := [0]
  lhsNonContracting := [0]
  rhsNonContracting := [1]
  lhsBatch := []
  rhsBatch := []
  wf := dot_S100000x8_S8x32_S100000x32_1_0_0_1_n_n_wf
def gather_S100000x32_S2100000x1_S2100000x32_1_0_n_n_0_1_132 : GatherDims S100000x32 S2100000x1 S2100000x32 where
  offsetDims := [1]
  collapsedSliceDims := [0]
  operandBatchingDims := []
  startIndicesBatchingDims := []
  startIndexMap := [0]
  indexVectorDim := 1
  sliceSizes := ![1, 32]
  wf := gather_S100000x32_S2100000x1_S2100000x32_1_0_n_n_0_1_132_wf
def scatter_S100000x32_S2100000x1_S2100000x32_1_0_0_1 : ScatterDims S100000x32 S2100000x1 S2100000x32 where
  updateWindowDims := [1]
  insertedWindowDims := [0]
  scatterDimsToOperandDims := [0]
  indexVectorDim := 1
  wf := scatter_S100000x32_S2100000x1_S2100000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Boundary.lean ====
/-
  What the buffers hold between the layers.

  Between the three kernels the program runs the same host steps as the reference: it builds the source and target
  index vectors (the edges followed by one self-loop per node), the symmetric normalisation of every edge, and, around
  each kernel, gathers the projected rows at the sources, scales them and scatter-adds them at the targets. Here each
  buffer a kernel or a later host step reads is written as the reference's own stage function of the launch arguments
  — the operations are the same operations in the same order, so the two terms are one term —, and each buffer that
  nothing in between writes is carried across unchanged.
-/
import proofs.«132305_j60670708023801_1_alg».proof.Proof.Gen.KernelIdeal.Frame
import proofs.«132305_j60670708023801_1_alg».proof.Proof.RefRead

set_option maxRecDepth 16384

noncomputable section

namespace Cert.KernelIdeal.Boundary

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## The arguments reach the first kernel as launched: no host step before it writes one -/

theorem W3_arg0 : W3 m ρ c (Proc.devRef .tc main_arg0) = m ((c : Thread nD τ).loc main_arg0) :=
  (StableHlo.after_of_forall_not_mem (b := Proc.devRef .tc main_arg0) _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_2 (W2 m ρ c) (Proc.devRef .tc main_arg0) = W2 m ρ c (Proc.devRef .tc main_arg0)).trans
  ((StableHlo.after_of_forall_not_mem (b := Proc.devRef .tc main_arg0) _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_1 (W1 m ρ c) (Proc.devRef .tc main_arg0) = W1 m ρ c (Proc.devRef .tc main_arg0)).trans
  (StableHlo.after_of_forall_not_mem (b := Proc.devRef .tc main_arg0) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg0) = W0 m ρ c (Proc.devRef .tc main_arg0)))

theorem W3_arg2 : W3 m ρ c (Proc.devRef .tc main_arg2) = m ((c : Thread nD τ).loc main_arg2) :=
  (StableHlo.after_of_forall_not_mem (b := Proc.devRef .tc main_arg2) _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_2 (W2 m ρ c) (Proc.devRef .tc main_arg2) = W2 m ρ c (Proc.devRef .tc main_arg2)).trans
  ((StableHlo.after_of_forall_not_mem (b := Proc.devRef .tc main_arg2) _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_1 (W1 m ρ c) (Proc.devRef .tc main_arg2) = W1 m ρ c (Proc.devRef .tc main_arg2)).trans
  (StableHlo.after_of_forall_not_mem (b := Proc.devRef .tc main_arg2) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg2) = W0 m ρ c (Proc.devRef .tc main_arg2)))

theorem W3_arg3 : W3 m ρ c (Proc.devRef .tc main_arg3) = m ((c : Thread nD τ).loc main_arg3) :=
  (StableHlo.after_of_forall_not_mem (b := Proc.devRef .tc main_arg3) _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_2 (W2 m ρ c) (Proc.devRef .tc main_arg3) = W2 m ρ c (Proc.devRef .tc main_arg3)).trans
  ((StableHlo.after_of_forall_not_mem (b := Proc.devRef .tc main_arg3) _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_1 (W1 m ρ c) (Proc.devRef .tc main_arg3) = W1 m ρ c (Proc.devRef .tc main_arg3)).trans
  (StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg3) = W0 m ρ c (Proc.devRef .tc main_arg3)))

theorem W3_arg4 : W3 m ρ c (Proc.devRef .tc main_arg4) = m ((c : Thread nD τ).loc main_arg4) :=
  (StableHlo.after_of_forall_not_mem (b := Proc.devRef .tc main_arg4) _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_2 (W2 m ρ c) (Proc.devRef .tc main_arg4) = W2 m ρ c (Proc.devRef .tc main_arg4)).trans
  ((StableHlo.after_of_forall_not_mem (b := Proc.devRef .tc main_arg4) _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_1 (W1 m ρ c) (Proc.devRef .tc main_arg4) = W1 m ρ c (Proc.devRef .tc main_arg4)).trans
  (StableHlo.after_of_forall_not_mem (b := Proc.devRef .tc main_arg4) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg4) = W0 m ρ c (Proc.devRef .tc main_arg4)))

theorem W3_arg5 : W3 m ρ c (Proc.devRef .tc main_arg5) = m ((c : Thread nD τ).loc main_arg5) :=
  (StableHlo.after_of_forall_not_mem (b := Proc.devRef .tc main_arg5) _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_2 (W2 m ρ c) (Proc.devRef .tc main_arg5) = W2 m ρ c (Proc.devRef .tc main_arg5)).trans
  ((StableHlo.after_of_forall_not_mem (b := Proc.devRef .tc main_arg5) _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_1 (W1 m ρ c) (Proc.devRef .tc main_arg5) = W1 m ρ c (Proc.devRef .tc main_arg5)).trans
  (StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg5) = W0 m ρ c (Proc.devRef .tc main_arg5)))

theorem W3_arg6 : W3 m ρ c (Proc.devRef .tc main_arg6) = m ((c : Thread nD τ).loc main_arg6) :=
  (StableHlo.after_of_forall_not_mem (b := Proc.devRef .tc main_arg6) _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_2 (W2 m ρ c) (Proc.devRef .tc main_arg6) = W2 m ρ c (Proc.devRef .tc main_arg6)).trans
  ((StableHlo.after_of_forall_not_mem (b := Proc.devRef .tc main_arg6) _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_1 (W1 m ρ c) (Proc.devRef .tc main_arg6) = W1 m ρ c (Proc.devRef .tc main_arg6)).trans
  (StableHlo.after_of_forall_not_mem (b := Proc.devRef .tc main_arg6) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg6) = W0 m ρ c (Proc.devRef .tc main_arg6)))

theorem W3_arg7 : W3 m ρ c (Proc.devRef .tc main_arg7) = m ((c : Thread nD τ).loc main_arg7) :=
  (StableHlo.after_of_forall_not_mem (b := Proc.devRef .tc main_arg7) _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_2 (W2 m ρ c) (Proc.devRef .tc main_arg7) = W2 m ρ c (Proc.devRef .tc main_arg7)).trans
  ((StableHlo.after_of_forall_not_mem (b := Proc.devRef .tc main_arg7) _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_1 (W1 m ρ c) (Proc.devRef .tc main_arg7) = W1 m ρ c (Proc.devRef .tc main_arg7)).trans
  (StableHlo.after_of_forall_not_mem (b := Proc.devRef .tc main_arg7) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg7) = W0 m ρ c (Proc.devRef .tc main_arg7)))

/-! ## The index vectors and the edge weights: the reference's stages of the edge list -/

set_option maxHeartbeats 4000000 in
/-- The source vector: the edges' first row, then every node once. -/
theorem W1_v3 : W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  after_results
  rfl
set_option maxHeartbeats 4000000 in
/-- The target vector: the edges' second row, then every node once. -/
theorem W1_v6 : W1 m ρ c (Proc.devRef .tc main_v6) = Cert.ReferenceIdeal.ReadP.val_main_v6 (F := F) (m ((c : Thread nD τ).loc main_arg1)) := by
  show StableHlo.after hostOps0 (W0 m ρ c) (Proc.devRef .tc main_v6) = _
  after_results
  rfl
set_option maxHeartbeats 4000000 in
/-- Which nodes have a positive in-degree. -/
theorem W1_v12 : W1 m ρ c (Proc.devRef .tc main_v12) = Cert.ReferenceIdeal.ReadP.val_main_v12 (F := F) (m ((c : Thread nD τ).loc main_arg1)) := by
  show StableHlo.after hostOps0 (W0 m ρ c) (Proc.devRef .tc main_v12) = _
  after_results
  rfl
set_option maxHeartbeats 4000000 in
/-- The reciprocal square root of the clamped in-degree. -/
theorem W1_v15 : W1 m ρ c (Proc.devRef .tc main_v15) = Cert.ReferenceIdeal.ReadP.val_main_v15 (F := F) (m ((c : Thread nD τ).loc main_arg1)) := by
  show StableHlo.after hostOps0 (W0 m ρ c) (Proc.devRef .tc main_v15) = _
  after_results
  rfl
set_option maxHeartbeats 4000000 in
theorem W1_cst_3 : W1 m ρ c (Proc.devRef .tc main_cst_3) = Cert.ReferenceIdeal.ReadP.val_main_cst_3 (F := F) := by
  show StableHlo.after hostOps0 (W0 m ρ c) (Proc.devRef .tc main_cst_3) = _
  after_results
  rfl

set_option maxHeartbeats 4000000 in
/-- The per-node factor: that reciprocal square root where the in-degree is positive, zero elsewhere. -/
theorem W2_v16 : W2 m ρ c (Proc.devRef .tc main_v16) = Cert.ReferenceIdeal.ReadP.val_main_v16 (F := F) (m ((c : Thread nD τ).loc main_arg1)) := by
  show StableHlo.after hostOps0_1 (W1 m ρ c) (Proc.devRef .tc main_v16) = _
  after_results
  rfl
theorem W2_v3 : W2 m ρ c (Proc.devRef .tc main_v3) = Cert.ReferenceIdeal.ReadP.val_main_v3 (F := F) (m ((c : Thread nD τ).loc main_arg1)) :=
  (StableHlo.after_of_forall_not_mem (b := Proc.devRef .tc main_v3) _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_1 (W1 m ρ c) (Proc.devRef .tc main_v3) = W1 m ρ c (Proc.devRef .tc main_v3)).trans (W1_v3 m ρ c)
theorem W2_v6 : W2 m ρ c (Proc.devRef .tc main_v6) = Cert.ReferenceIdeal.ReadP.val_main_v6 (F := F) (m ((c : Thread nD τ).loc main_arg1)) :=
  (StableHlo.after_of_forall_not_mem (b := Proc.devRef .tc main_v6) _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_1 (W1 m ρ c) (Proc.devRef .tc main_v6) = W1 m ρ c (Proc.devRef .tc main_v6)).trans (W1_v6 m ρ c)

set_option maxHeartbeats 4000000 in
/-- The edge weights from any contents of the buffers the step reads: the per-node factor gathered at an edge's
    source (a negative index first wrapped by the number of nodes) times the factor gathered at its target. -/
theorem edge_weights (Wv : Valuation τ sig (Elt F)) (x1 : (⟨Cert.ReferenceIdeal.S2x2000000, .i32⟩ : BufTy).Contents (Elt F))
    (h16 : Wv (Proc.devRef .tc main_v16) = Cert.ReferenceIdeal.ReadP.val_main_v16 (F := F) x1)
    (h3 : Wv (Proc.devRef .tc main_v3) = Cert.ReferenceIdeal.ReadP.val_main_v3 (F := F) x1)
    (h6 : Wv (Proc.devRef .tc main_v6) = Cert.ReferenceIdeal.ReadP.val_main_v6 (F := F) x1) :
    StableHlo.after hostOps0_2 Wv (Proc.devRef .tc main_v31) = Cert.ReferenceIdeal.ReadP.val_main_v31 (F := F) x1 := by
  after_results_simp
  rw [h16, h3, h6]
  rfl

/-- The edge weights: the factor at an edge's source times the factor at its target. -/
theorem W3_v31 : W3 m ρ c (Proc.devRef .tc main_v31) = Cert.ReferenceIdeal.ReadP.val_main_v31 (F := F) (m ((c : Thread nD τ).loc main_arg1)) :=
  edge_weights (W2 m ρ c) _ (W2_v16 m ρ c) (W2_v3 m ρ c) (W2_v6 m ρ c)
theorem W3_v3 : W3 m ρ c (Proc.devRef .tc main_v3) = Cert.ReferenceIdeal.ReadP.val_main_v3 (F := F) (m ((c : Thread nD τ).loc main_arg1)) :=
  (StableHlo.after_of_forall_not_mem (b := Proc.devRef .tc main_v3) _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_2 (W2 m ρ c) (Proc.devRef .tc main_v3) = W2 m ρ c (Proc.devRef .tc main_v3)).trans (W2_v3 m ρ c)
theorem W3_v6 : W3 m ρ c (Proc.devRef .tc main_v6) = Cert.ReferenceIdeal.ReadP.val_main_v6 (F := F) (m ((c : Thread nD τ).loc main_arg1)) :=
  (StableHlo.after_of_forall_not_mem (b := Proc.devRef .tc main_v6) _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0_2 (W2 m ρ c) (Proc.devRef .tc main_v6) = W2 m ρ c (Proc.devRef .tc main_v6)).trans (W2_v6 m ρ c)

end Cert.KernelIdeal.Boundary

end
-- ==== Proof.HostSteps.lean ====
/-
  The host steps between the kernels, as functions of what they read.

  After a kernel has left its projection in memory, the program gathers the projected rows at the edges' sources (a
  negative index first wrapped by the number of nodes), scales each by its edge weight, and scatter-adds them at the
  targets into zeros: exactly the reference's aggregation of that projection, operation for operation. It also
  reshapes the next bias vector into a one-row array, where the reference broadcasts it into one: the same entries.
  Stated for any family of float values and any contents of the buffers read, so nothing here evaluates an operation.
-/
import proofs.«132305_j60670708023801_1_alg».proof.Proof.Gen.KernelIdeal.Launch
import proofs.«132305_j60670708023801_1_alg».proof.Proof.RefRead
import Idealize.ShloMosaic.Lib.StableHlo.Run

set_option maxRecDepth 16384

noncomputable section

namespace Cert.KernelIdeal.HostSteps

open Cert.KernelIdeal Cert.KernelIdeal.Gen Idealize.ShloMosaic Idealize.ShloMosaic.TcCoe Idealize.SL.Sem Idealize.ShloMosaic.StableHlo

variable {F : FTy → Type} [FloatOps F]
variable (Wv : Valuation τ sig (Elt F))

set_option maxHeartbeats 4000000 in
/-- The first aggregation: gather the first projection at the sources, weight, scatter-add at the targets. -/
theorem first_aggregation (x0 : (⟨Cert.ReferenceIdeal.S100000x8, .f32⟩ : BufTy).Contents (Elt F)) (x1 : (⟨Cert.ReferenceIdeal.S2x2000000, .i32⟩ : BufTy).Contents (Elt F)) (x2 : (⟨Cert.ReferenceIdeal.S8x32, .f32⟩ : BufTy).Contents (Elt F))
    (h32 : Wv (Proc.devRef .tc main_v32) = Cert.ReferenceIdeal.ReadP.val_main_v32 (F := F) x0 x2)
    (h3 : Wv (Proc.devRef .tc main_v3) = Cert.ReferenceIdeal.ReadP.val_main_v3 (F := F) x1)
    (h6 : Wv (Proc.devRef .tc main_v6) = Cert.ReferenceIdeal.ReadP.val_main_v6 (F := F) x1)
    (h31 : Wv (Proc.devRef .tc main_v31) = Cert.ReferenceIdeal.ReadP.val_main_v31 (F := F) x1) :
    StableHlo.after hostOps1 Wv (Proc.devRef .tc main_v45) = Cert.ReferenceIdeal.ReadP.val_main_v45 (F := F) x0 x1 x2 := by
  after_results_simp
  rw [h32, h3, h6, h31]
  rfl

set_option maxHeartbeats 4000000 in
/-- The second aggregation: the same steps on the second projection. -/
theorem second_aggregation (x0 : (⟨Cert.ReferenceIdeal.S100000x8, .f32⟩ : BufTy).Contents (Elt F)) (x1 : (⟨Cert.ReferenceIdeal.S2x2000000, .i32⟩ : BufTy).Contents (Elt F)) (x2 : (⟨Cert.ReferenceIdeal.S8x32, .f32⟩ : BufTy).Contents (Elt F)) (x3 : (⟨Cert.ReferenceIdeal.S32, .f32⟩ : BufTy).Contents (Elt F)) (x4 : (⟨Cert.ReferenceIdeal.S32x32, .f32⟩ : BufTy).Contents (Elt F))
    (h47 : Wv (Proc.devRef .tc main_v47) = Cert.ReferenceIdeal.ReadP.val_main_v50 (F := F) x0 x1 x2 x3 x4)
    (h3 : Wv (Proc.devRef .tc main_v3) = Cert.ReferenceIdeal.ReadP.val_main_v3 (F := F) x1)
    (h6 : Wv (Proc.devRef .tc main_v6) = Cert.ReferenceIdeal.ReadP.val_main_v6 (F := F) x1)
    (h31 : Wv (Proc.devRef .tc main_v31) = Cert.ReferenceIdeal.ReadP.val_main_v31 (F := F) x1) :
    StableHlo.after hostOps2 Wv (Proc.devRef .tc main_v60) = Cert.ReferenceIdeal.ReadP.val_main_v63 (F := F) x0 x1 x2 x3 x4 := by
  after_results_simp
  rw [h47, h3, h6, h31]
  rfl

/-- A 32-vector reshaped to one row has the entries of the vector broadcast into one row. -/
theorem row_of_vector (x : (⟨Cert.ReferenceIdeal.S32, .f32⟩ : BufTy).Contents (Elt F)) :
    shapeCast S1x32 x shapeCasts_S32_S1x32 = broadcastInDim Cert.ReferenceIdeal.S1x32 ![1] Cert.ReferenceIdeal.Gen.bcast_S32_S1x32_1 x := by
  funext i
  refine (shapeCast_addUnit_apply ![32] x shapeCasts_S32_S1x32 i).trans ?_
  refine Eq.symm (broadcastInDim_apply _ Cert.ReferenceIdeal.Gen.bcast_S32_S1x32_1 x i (fun a => i a.succ) (fun a => match a with
    | ⟨0, _⟩ => by show (i 1).val = if (32 : Nat) = 1 then 0 else (i 1).val; rw [if_neg (by decide)]))

/-- A 1-vector reshaped to a 1 × 1 array has the entry of the vector broadcast into one. -/
theorem cell_of_vector (x : (⟨Cert.ReferenceIdeal.S1, .f32⟩ : BufTy).Contents (Elt F)) :
    shapeCast S1x1 x shapeCasts_S1_S1x1 = broadcastInDim Cert.ReferenceIdeal.S1x1 ![1] Cert.ReferenceIdeal.Gen.bcast_S1_S1x1_1 x := by
  funext i
  refine (shapeCast_addUnit_apply ![1] x shapeCasts_S1_S1x1 i).trans ?_
  refine Eq.symm (broadcastInDim_apply _ Cert.ReferenceIdeal.Gen.bcast_S1_S1x1_1 x i (fun a => i a.succ) (fun a => match a with
    | ⟨0, _⟩ => by
      show (i 1).val = if (1 : Nat) = 1 then 0 else (i 1).val
      rw [if_pos rfl]; have := (i 1).isLt; simp at this; omega))

/-- The first bias as the second kernel reads it is the reference's one-row bias. -/
theorem first_bias (x3 : (⟨Cert.ReferenceIdeal.S32, .f32⟩ : BufTy).Contents (Elt F)) (h : Wv (Proc.devRef .tc main_arg3) = x3) :
    StableHlo.after hostOps1 Wv (Proc.devRef .tc main_v46) = Cert.ReferenceIdeal.ReadP.val_main_v46 (F := F) x3 := by
  after_results
  rw [h]
  exact row_of_vector x3

/-- The second bias as the third kernel reads it is the reference's one-row bias. -/
theorem second_bias (x5 : (⟨Cert.ReferenceIdeal.S32, .f32⟩ : BufTy).Contents (Elt F)) (h : Wv (Proc.devRef .tc main_arg5) = x5) :
    StableHlo.after hostOps2 Wv (Proc.devRef .tc main_v61) = Cert.ReferenceIdeal.ReadP.val_main_v64 (F := F) x5 := by
  after_results
  rw [h]
  exact row_of_vector x5

/-- The output bias as the third kernel reads it is the reference's 1 × 1 bias. -/
theorem output_bias (x7 : (⟨Cert.ReferenceIdeal.S1, .f32⟩ : BufTy).Contents (Elt F)) (h : Wv (Proc.devRef .tc main_arg7) = x7) :
    StableHlo.after hostOps2 Wv (Proc.devRef .tc main_v62) = Cert.ReferenceIdeal.ReadP.val_main_v69 (F := F) x7 := by
  after_results
  rw [h]
  exact cell_of_vector x7

end Cert.KernelIdeal.HostSteps

end
-- ==== Proof.RefLayers.lean ====
/-
  The reference's second and third layers read at an index.

  After the first aggregation a the reference computes max(a + b1, 0) · W2, aggregates again to a', and returns
  max(a' + b2, 0) · Wf + bf. Read at the row r and column n these are
      Σ_k max(a(r, k) + b1(k), 0) · W2(k, n)      and      (Σ_k max(a'(r, k) + b2(k), 0) · Wf(k, 0)) + bf,
  the bias rows reaching every node row through two broadcasts and the clamp comparing with a broadcast zero. The
  aggregations themselves stay closed: nothing here opens a gather or a scatter.
-/
import proofs.«132305_j60670708023801_1_alg».proof.Proof.RefRead

noncomputable section

namespace Cert.ReferenceIdeal.Layers

open Cert.ReferenceIdeal Cert.ReferenceIdeal.Gen Cert.ReferenceIdeal.ReadP Idealize.ShloMosaic Idealize.ShloMosaic.TcCoe Idealize.SL.Sem

/-- The first clamp compares with the zero the reference broadcasts. -/
theorem zero_second (p : S100000x32.Idx) : val_main_call1_v0 (F := Ideal) p = (0 : EReal) := by
  rw [val_main_call1_v0_apply, val_main_call1_cst_apply]
  exact Ideal.ofBits_zero_f32

/-- So does the second. -/
theorem zero_third (p : S100000x32.Idx) : val_main_call2_v0 (F := Ideal) p = (0 : EReal) := by
  rw [val_main_call2_v0_apply, val_main_call2_cst_apply]
  exact Ideal.ofBits_zero_f32

/-- On the extended reals the clamp of a sum is the larger of the sum and zero. -/
theorem clamp (a b : EReal) :
    FloatOps.maximumf (F := Ideal) (φ := .f32) (FloatOps.addf (F := Ideal) (φ := .f32) a b) (0 : EReal) = max (a + b) (0 : EReal) := rfl

/-- The second projection at (r, n), over the first aggregation and the first bias as the reference stages them. -/
theorem second_apply (x0 : (⟨Cert.ReferenceIdeal.S100000x8, .f32⟩ : BufTy).Contents (Elt Ideal)) (x1 : (⟨Cert.ReferenceIdeal.S2x2000000, .i32⟩ : BufTy).Contents (Elt Ideal)) (x2 : (⟨Cert.ReferenceIdeal.S8x32, .f32⟩ : BufTy).Contents (Elt Ideal)) (x3 : (⟨Cert.ReferenceIdeal.S32, .f32⟩ : BufTy).Contents (Elt Ideal)) (x4 : (⟨Cert.ReferenceIdeal.S32x32, .f32⟩ : BufTy).Contents (Elt Ideal)) (i : S100000x32.Idx) :
    val_main_v50 (F := Ideal) x0 x1 x2 x3 x4 i
      = ∑ k : Fin 32, max (val_main_v45 (F := Ideal) x0 x1 x2 (lidx_main_v50 i k) + val_main_v46 (F := Ideal) x3 (idx_main_v47 (lidx_main_v50 i k))) (0 : EReal)
          * x4 (ridx_main_v50 i k) := by
  rw [val_main_v50_apply]
  refine Finset.sum_congr rfl fun k _ => ?_
  rw [val_main_v49_apply, val_main_v48_apply, val_main_v47_apply, zero_second, clamp]

/-- The output at (r, 0), over the second aggregation, the second bias and the output bias as the reference stages them. -/
theorem third_apply (x0 : (⟨Cert.ReferenceIdeal.S100000x8, .f32⟩ : BufTy).Contents (Elt Ideal)) (x1 : (⟨Cert.ReferenceIdeal.S2x2000000, .i32⟩ : BufTy).Contents (Elt Ideal)) (x2 : (⟨Cert.ReferenceIdeal.S8x32, .f32⟩ : BufTy).Contents (Elt Ideal)) (x3 : (⟨Cert.ReferenceIdeal.S32, .f32⟩ : BufTy).Contents (Elt Ideal)) (x4 : (⟨Cert.ReferenceIdeal.S32x32, .f32⟩ : BufTy).Contents (Elt Ideal))
    (x5 : (⟨Cert.ReferenceIdeal.S32, .f32⟩ : BufTy).Contents (Elt Ideal)) (x6 : (⟨Cert.ReferenceIdeal.S32x1, .f32⟩ : BufTy).Contents (Elt Ideal)) (x7 : (⟨Cert.ReferenceIdeal.S1, .f32⟩ : BufTy).Contents (Elt Ideal)) (i : S100000x1.Idx) :
    val_main_v71 (F := Ideal) x0 x1 x2 x3 x4 x5 x6 x7 i
      = (∑ k : Fin 32, max (val_main_v63 (F := Ideal) x0 x1 x2 x3 x4 (lidx_main_v68 i k) + val_main_v64 (F := Ideal) x5 (idx_main_v65 (lidx_main_v68 i k))) (0 : EReal)
          * x6 (ridx_main_v68 i k)) + val_main_v69 (F := Ideal) x7 (idx_main_v70 i) := by
  rw [val_main_v71_apply, val_main_v68_apply, val_main_v70_apply]
  refine congrArg (fun s : EReal => s + val_main_v69 (F := Ideal) x7 (idx_main_v70 i)) ?_
  refine Finset.sum_congr rfl fun k _ => ?_
  rw [val_main_v67_apply, val_main_v66_apply, val_main_v65_apply, zero_third, clamp]

end Cert.ReferenceIdeal.Layers

end
-- ==== Proof.Products.lean ====
/-
  The three matrix products of the network, each read at ONE index of the block a grid point stores.

  Every layer's kernel multiplies a block of 2000 node rows by a small weight matrix into a zero accumulator. Over the
  extended reals such a product at the output position (r, n) is the plain sum over the contracted axis k of
  left(r, k) · right(k, n): no rounding, no order of summation. The second and third layers first add the bias row to
  every node row and clamp at zero, so their left factor at (r, k) is max(a(r, k) + b(0, k), 0); the third adds its
  output bias b'(0, 0) to the sum.
-/
import proofs.«132305_j60670708023801_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Products

open Cert.KernelIdeal Cert.KernelIdeal.Gen Idealize.ShloMosaic Idealize.ShloMosaic.TcCoe Idealize.SL.Sem

/-! ## Where a product's factors sit: the contraction's operand indices, axis by axis -/

theorem lhsA_0 (i : S2000x32.Idx) (q : dot_S2000x8_S8x32_S2000x32_1_0_0_1_n_n.contr.Idx) :
    (dot_S2000x8_S8x32_S2000x32_1_0_0_1_n_n.lhsIdx i q 0).val = (i 0).val := by
  unfold DotDims.lhsIdx
  rw [dif_neg (show ¬(0 : Fin S2000x8.rank) ∈ dot_S2000x8_S8x32_S2000x32_1_0_0_1_n_n.lhsBatch by decide), dif_pos (show (0 : Fin S2000x8.rank) ∈ dot_S2000x8_S8x32_S2000x32_1_0_0_1_n_n.lhsNonContracting by decide)]
  rfl
theorem lhsA_1 (i : S2000x32.Idx) (q : dot_S2000x8_S8x32_S2000x32_1_0_0_1_n_n.contr.Idx) :
    (dot_S2000x8_S8x32_S2000x32_1_0_0_1_n_n.lhsIdx i q 1).val = (q ⟨0, by decide⟩).val :=
  dot_S2000x8_S8x32_S2000x32_1_0_0_1_n_n.lhsIdx_val_of_single rfl i q
theorem rhsA_0 (i : S2000x32.Idx) (q : dot_S2000x8_S8x32_S2000x32_1_0_0_1_n_n.contr.Idx) :
    (dot_S2000x8_S8x32_S2000x32_1_0_0_1_n_n.rhsIdx i q 0).val = (q ⟨0, by decide⟩).val :=
  dot_S2000x8_S8x32_S2000x32_1_0_0_1_n_n.rhsIdx_val_of_single rfl i q
theorem rhsA_1 (i : S2000x32.Idx) (q : dot_S2000x8_S8x32_S2000x32_1_0_0_1_n_n.contr.Idx) :
    (dot_S2000x8_S8x32_S2000x32_1_0_0_1_n_n.rhsIdx i q 1).val = (i 1).val := by
  unfold DotDims.rhsIdx
  rw [dif_neg (show ¬(1 : Fin S8x32.rank) ∈ dot_S2000x8_S8x32_S2000x32_1_0_0_1_n_n.rhsBatch by decide), dif_pos (show (1 : Fin S8x32.rank) ∈ dot_S2000x8_S8x32_S2000x32_1_0_0_1_n_n.rhsNonContracting by decide)]
  rfl

theorem lhsB_0 (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
theorem lhsB_1 (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
theorem rhsB_0 (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
theorem rhsB_1 (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

theorem lhsC_0 (i : S2000x1.Idx) (q : dot_S2000x32_S32x1_S2000x1_1_0_0_1_n_n.contr.Idx) :
    (dot_S2000x32_S32x1_S2000x1_1_0_0_1_n_n.lhsIdx i q 0).val = (i 0).val := by
  unfold DotDims.lhsIdx
  rw [dif_neg (show ¬(0 : Fin S2000x32.rank) ∈ dot_S2000x32_S32x1_S2000x1_1_0_0_1_n_n.lhsBatch by decide), dif_pos (show (0 : Fin S2000x32.rank) ∈ dot_S2000x32_S32x1_S2000x1_1_0_0_1_n_n.lhsNonContracting by decide)]
  rfl
theorem lhsC_1 (i : S2000x1.Idx) (q : dot_S2000x32_S32x1_S2000x1_1_0_0_1_n_n.contr.Idx) :
    (dot_S2000x32_S32x1_S2000x1_1_0_0_1_n_n.lhsIdx i q 1).val = (q ⟨0, by decide⟩).val :=
  dot_S2000x32_S32x1_S2000x1_1_0_0_1_n_n.lhsIdx_val_of_single rfl i q
theorem rhsC_0 (i : S2000x1.Idx) (q : dot_S2000x32_S32x1_S2000x1_1_0_0_1_n_n.contr.Idx) :
    (dot_S2000x32_S32x1_S2000x1_1_0_0_1_n_n.rhsIdx i q 0).val = (q ⟨0, by decide⟩).val :=
  dot_S2000x32_S32x1_S2000x1_1_0_0_1_n_n.rhsIdx_val_of_single rfl i q
theorem rhsC_1 (i : S2000x1.Idx) (q : dot_S2000x32_S32x1_S2000x1_1_0_0_1_n_n.contr.Idx) :
    (dot_S2000x32_S32x1_S2000x1_1_0_0_1_n_n.rhsIdx i q 1).val = (i 1).val := by
  unfold DotDims.rhsIdx
  rw [dif_neg (show ¬(1 : Fin S32x1.rank) ∈ dot_S2000x32_S32x1_S2000x1_1_0_0_1_n_n.rhsBatch by decide), dif_pos (show (1 : Fin S32x1.rank) ∈ dot_S2000x32_S32x1_S2000x1_1_0_0_1_n_n.rhsNonContracting by decide)]
  rfl

/-- Row `r` of the block, column `k` of its 8 features. -/
abbrev rowA (i : S2000x32.Idx) (k : Fin 8) : S2000x8.Idx := fun a => match a with
  | ⟨0, _⟩ => ⟨(i 0).val, (i 0).isLt⟩
  | ⟨1, _⟩ => ⟨k.val, k.isLt⟩
/-- Row `k` of the first weight matrix, output column `n`. -/
abbrev colA (i : S2000x32.Idx) (k : Fin 8) : S8x32.Idx := fun a => match a with
  | ⟨0, _⟩ => ⟨k.val, k.isLt⟩
  | ⟨1, _⟩ => ⟨(i 1).val, (i 1).isLt⟩
/-- Row `r` of the block, hidden feature `k`. -/
abbrev rowB (i : S2000x32.Idx) (k : Fin 32) : S2000x32.Idx := fun a => match a with
  | ⟨0, _⟩ => ⟨(i 0).val, (i 0).isLt⟩
  | ⟨1, _⟩ => ⟨k.val, k.isLt⟩
/-- Row `k` of the second weight matrix, output column `n`. -/
abbrev colB (i : S2000x32.Idx) (k : Fin 32) : S32x32.Idx := fun a => match a with
  | ⟨0, _⟩ => ⟨k.val, k.isLt⟩
  | ⟨1, _⟩ => ⟨(i 1).val, (i 1).isLt⟩
/-- Row `r` of the block, hidden feature `k` (the last layer's output has one column). -/
abbrev rowC (i : S2000x1.Idx) (k : Fin 32) : S2000x32.Idx := fun a => match a with
  | ⟨0, _⟩ => ⟨(i 0).val, (i 0).isLt⟩
  | ⟨1, _⟩ => ⟨k.val, k.isLt⟩
/-- Row `k` of the final weight column. -/
abbrev colC (i : S2000x1.Idx) (k : Fin 32) : S32x1.Idx := fun a => match a with
  | ⟨0, _⟩ => ⟨k.val, k.isLt⟩
  | ⟨1, _⟩ => ⟨(i 1).val, (i 1).isLt⟩
/-- The bias row's entry for hidden feature `k`. -/
abbrev biasAt (k : Fin 32) : S1x32.Idx := fun a => match a with
  | ⟨0, _⟩ => ⟨0, Nat.one_pos⟩
  | ⟨1, _⟩ => ⟨k.val, k.isLt⟩
/-- The one entry of the output bias. -/
abbrev biasOut : S1x1.Idx := fun a => match a with
  | ⟨0, _⟩ => ⟨0, Nat.one_pos⟩
  | ⟨1, _⟩ => ⟨0, Nat.one_pos⟩

/-! ## First layer: x · W1 -/

/-- What the first kernel stores is the product of its two loaded blocks into the zero accumulator. -/
theorem payA_eq (x0 : Vec Ideal S2000x8 .f32) (x1 : Vec Ideal S8x32 .f32) :
    k0_pay1 (F := Ideal) x0 x1 = matmul (φ₁ := .f32) (φ₂ := .f32) dot_S2000x8_S8x32_S2000x32_1_0_0_1_n_n (some .fp32) x0 x1 (constant S2000x32 .f32 0x00000000#32) := rfl

/-- At (r, n): the sum over the 8 features of x(r, k) · W1(k, n). -/
theorem payA_apply (x0 : Vec Ideal S2000x8 .f32) (x1 : Vec Ideal S8x32 .f32) (i : S2000x32.Idx) :
    k0_pay1 (F := Ideal) x0 x1 i = ∑ k : Fin 8, x0 (rowA i k) * x1 (colA i k) := by
  rw [payA_eq]
  simp only [matmul]
  rw [Ideal.matmul_constant_zero_apply, ← Equiv.sum_comp (ValueIdx.contrEquiv1 dot_S2000x8_S8x32_S2000x32_1_0_0_1_n_n 8 rfl rfl).symm]
  refine Finset.sum_congr rfl fun k _ => ?_
  have hk := ValueIdx.contrEquiv1_symm_val dot_S2000x8_S8x32_S2000x32_1_0_0_1_n_n 8 rfl rfl k
  have el : dot_S2000x8_S8x32_S2000x32_1_0_0_1_n_n.lhsIdx i ((ValueIdx.contrEquiv1 dot_S2000x8_S8x32_S2000x32_1_0_0_1_n_n 8 rfl rfl).symm k) = rowA i k := funext fun a => Fin.ext (by
    match a with
    | ⟨0, _⟩ => exact lhsA_0 _ _
    | ⟨1, _⟩ => exact (lhsA_1 _ _).trans hk)
  have er : dot_S2000x8_S8x32_S2000x32_1_0_0_1_n_n.rhsIdx i ((ValueIdx.contrEquiv1 dot_S2000x8_S8x32_S2000x32_1_0_0_1_n_n 8 rfl rfl).symm k) = colA i k := funext fun a => Fin.ext (by
    match a with
    | ⟨0, _⟩ => exact (rhsA_0 _ _).trans hk
    | ⟨1, _⟩ => exact rhsA_1 _ _)
  rw [el, er]

/-! ## Second layer: max(a + b1, 0) · W2 -/

/-- The bias row broadcast down the block's rows, read at (r, k): its entry for feature `k`. -/
theorem biasRow_apply (b : Vec Ideal S1x32 .f32) (j : S2000x32.Idx) (k : Fin 32) (hj : (j 1).val = k.val) :
    broadcastTo S2000x32 (shapeCast S1x32 b shapeCasts_S1x32_S1x32) broadcasts_S1x32_S2000x32 j = b (biasAt k) := by
  rw [shapeCast_self]
  exact broadcastTo_apply b broadcasts_S1x32_S2000x32 j (biasAt k) (fun a => match a with
    | ⟨0, _⟩ => by show 0 = if (1 : Nat) = 1 then 0 else (j 0).val; rw [if_pos rfl]
    | ⟨1, _⟩ => by show k.val = if (32 : Nat) = 1 then 0 else (j 1).val; rw [if_neg (by decide), hj])

/-- The clamped, biased block: what the second and third kernels multiply on the left. -/
abbrev act (a : Vec Ideal S2000x32 .f32) (b : Vec Ideal S1x32 .f32) : FVec Ideal S2000x32 .f32 :=
  maximumf (addf (shapeCast S2000x32 a shapeCasts_S2000x32_S2000x32) (broadcastTo S2000x32 (shapeCast S1x32 b shapeCasts_S1x32_S1x32) broadcasts_S1x32_S2000x32))
    (broadcast S2000x32 (Scalar.ofBits .f32 0x00000000#32))

/-- At (r, k) it is max(a(r, k) + b(0, k), 0). -/
theorem act_apply (a : Vec Ideal S2000x32 .f32) (b : Vec Ideal S1x32 .f32) (j : S2000x32.Idx) (k : Fin 32) (hj : (j 1).val = k.val) :
    act a b j = max (a j + b (biasAt k)) (0 : EReal) := by
  unfold act
  rw [ValueIdx.maximumf_apply, ValueIdx.addf_apply, shapeCast_self, biasRow_apply b j k hj, ValueIdx.broadcast_apply]
  exact congrArg (max _) Ideal.ofBits_zero_f32

theorem payB_eq (a : Vec Ideal S2000x32 .f32) (b : Vec Ideal S1x32 .f32) (w : Vec Ideal S32x32 .f32) :
    k1_pay1 (F := Ideal) a b w = matmul (φ₁ := .f32) (φ₂ := .f32) dot_S2000x32_S32x32_S2000x32_1_0_0_1_n_n (some .fp32) (act a b) w (constant S2000x32 .f32 0x00000000#32) := rfl

/-- At (r, n): the sum over the 32 hidden features of max(a(r, k) + b1(k), 0) · W2(k, n). -/
theorem payB_apply (a : Vec Ideal S2000x32 .f32) (b : Vec Ideal S1x32 .f32) (w : Vec Ideal S32x32 .f32) (i : S2000x32.Idx) :
    k1_pay1 (F := Ideal) a b w i = ∑ k : Fin 32, max (a (rowB i k) + b (biasAt k)) (0 : EReal) * w (colB i k) := by
  rw [payB_eq]
  simp only [matmul]
  rw [Ideal.matmul_constant_zero_apply, ← Equiv.sum_comp (ValueIdx.contrEquiv1 dot_S2000x32_S32x32_S2000x32_1_0_0_1_n_n 32 rfl rfl).symm]
  refine Finset.sum_congr rfl fun k _ => ?_
  have hk := ValueIdx.contrEquiv1_symm_val dot_S2000x32_S32x32_S2000x32_1_0_0_1_n_n 32 rfl rfl k
  have el : dot_S2000x32_S32x32_S2000x32_1_0_0_1_n_n.lhsIdx i ((ValueIdx.contrEquiv1 dot_S2000x32_S32x32_S2000x32_1_0_0_1_n_n 32 rfl rfl).symm k) = rowB i k := funext fun a => Fin.ext (by
    match a with
    | ⟨0, _⟩ => exact lhsB_0 _ _
    | ⟨1, _⟩ => exact (lhsB_1 _ _).trans hk)
  have er : dot_S2000x32_S32x32_S2000x32_1_0_0_1_n_n.rhsIdx i ((ValueIdx.contrEquiv1 dot_S2000x32_S32x32_S2000x32_1_0_0_1_n_n 32 rfl rfl).symm k) = colB i k := funext fun a => Fin.ext (by
    match a with
    | ⟨0, _⟩ => exact (rhsB_0 _ _).trans hk
    | ⟨1, _⟩ => exact rhsB_1 _ _)
  rw [el, er]
  rw [act_apply a b (rowB i k) k rfl]

/-! ## Third layer: max(a + b2, 0) · Wf + bf -/

theorem payC_eq (a : Vec Ideal S2000x32 .f32) (b : Vec Ideal S1x32 .f32) (w : Vec Ideal S32x1 .f32) (o : Vec Ideal S1x1 .f32) :
    k2_pay1 (F := Ideal) a b w o = addf (matmul (φ₁ := .f32) (φ₂ := .f32) dot_S2000x32_S32x1_S2000x1_1_0_0_1_n_n (some .fp32) (act a b) w (constant S2000x1 .f32 0x00000000#32))
      (broadcastTo S2000x1 (shapeCast S1x1 o shapeCasts_S1x1_S1x1) broadcasts_S1x1_S2000x1) := rfl

/-- The product alone, at (r, 0). -/
theorem prodC_apply (a : Vec Ideal S2000x32 .f32) (b : Vec Ideal S1x32 .f32) (w : Vec Ideal S32x1 .f32) (i : S2000x1.Idx) :
    matmul (φ₁ := .f32) (φ₂ := .f32) dot_S2000x32_S32x1_S2000x1_1_0_0_1_n_n (some .fp32) (act a b) w (constant S2000x1 .f32 0x00000000#32) i
      = ∑ k : Fin 32, max (a (rowC i k) + b (biasAt k)) (0 : EReal) * w (colC i k) := by
  simp only [matmul]
  rw [Ideal.matmul_constant_zero_apply, ← Equiv.sum_comp (ValueIdx.contrEquiv1 dot_S2000x32_S32x1_S2000x1_1_0_0_1_n_n 32 rfl rfl).symm]
  refine Finset.sum_congr rfl fun k _ => ?_
  have hk := ValueIdx.contrEquiv1_symm_val dot_S2000x32_S32x1_S2000x1_1_0_0_1_n_n 32 rfl rfl k
  have el : dot_S2000x32_S32x1_S2000x1_1_0_0_1_n_n.lhsIdx i ((ValueIdx.contrEquiv1 dot_S2000x32_S32x1_S2000x1_1_0_0_1_n_n 32 rfl rfl).symm k) = rowC i k := funext fun a => Fin.ext (by
    match a with
    | ⟨0, _⟩ => exact lhsC_0 _ _
    | ⟨1, _⟩ => exact (lhsC_1 _ _).trans hk)
  have er : dot_S2000x32_S32x1_S2000x1_1_0_0_1_n_n.rhsIdx i ((ValueIdx.contrEquiv1 dot_S2000x32_S32x1_S2000x1_1_0_0_1_n_n 32 rfl rfl).symm k) = colC i k := funext fun a => Fin.ext (by
    match a with
    | ⟨0, _⟩ => exact (rhsC_0 _ _).trans hk
    | ⟨1, _⟩ => exact rhsC_1 _ _)
  rw [el, er]
  rw [act_apply a b (rowC i k) k rfl]

/-- The output bias broadcast down the block's rows is its one entry. -/
theorem biasOut_apply (o : Vec Ideal S1x1 .f32) (i : S2000x1.Idx) :
    broadcastTo S2000x1 (shapeCast S1x1 o shapeCasts_S1x1_S1x1) broadcasts_S1x1_S2000x1 i = o biasOut := by
  rw [shapeCast_self]
  exact broadcastTo_apply o broadcasts_S1x1_S2000x1 i biasOut (fun a => match a with
    | ⟨0, _⟩ => by show 0 = if (1 : Nat) = 1 then 0 else (i 0).val; rw [if_pos rfl]
    | ⟨1, _⟩ => by show 0 = if (1 : Nat) = 1 then 0 else (i 1).val; rw [if_pos rfl])

/-- At (r, 0): the sum over the 32 hidden features of max(a(r, k) + b2(k), 0) · Wf(k, 0), plus bf. -/
theorem payC_apply (a : Vec Ideal S2000x32 .f32) (b : Vec Ideal S1x32 .f32) (w : Vec Ideal S32x1 .f32) (o : Vec Ideal S1x1 .f32) (i : S2000x1.Idx) :
    k2_pay1 (F := Ideal) a b w o i = (∑ k : Fin 32, max (a (rowC i k) + b (biasAt k)) (0 : EReal) * w (colC i k)) + o biasOut := by
  rw [payC_eq, ValueIdx.addf_apply, prodC_apply, biasOut_apply]

end Cert.KernelIdeal.Products

end
-- ==== Proof.LayerA.lean ====
/-
  The first layer's projection, block by block, is the whole matrix product.

  The first kernel walks the 100000 node rows in 50 blocks of 2000. At grid point t it reads rows 2000·t … 2000·t + 1999
  of x and the whole of W1, and writes the product into rows 2000·t … of its result. The reference computes x · W1 in
  one step; at the row r = 2000·t + y of block t both are the sum over the 8 input features k of x(r, k) · W1(k, n).
  The 50 row blocks tile the result (row r lies in block r / 2000), so after the last write-back the result array IS
  the reference's product, whatever x and W1 hold.
-/
import proofs.«132305_j60670708023801_1_alg».proof.Proof.Gen.KernelIdeal.Frame
import proofs.«132305_j60670708023801_1_alg».proof.Proof.RefRead
import proofs.«132305_j60670708023801_1_alg».proof.Proof.Products

set_option maxRecDepth 16384

noncomputable section

namespace Cert.KernelIdeal.LayerA

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the node-row windows at block row `t`, the weights at the origin. -/
theorem blockAt : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `y` of the block of x at point `t` is row 2000·t + y of x. -/
theorem read_x (c : Dev nD) (t : Fin cfg0.N) (y : S2000x8.Idx) (i : S100000x8.Idx)
    (h0 : (i 0).val = t.val * 2000 + (y 0).val) (h1 : (i 1).val = (y 1).val) :
    iblk0 V c 0 t y = V c main_arg0 i := by
  obtain ⟨e0, e1, -⟩ := blockAt t
  show V c main_arg0 (((cfg0.win 0).blk t).view.emb y) = V c main_arg0 i
  refine congrArg (V c main_arg0) (funext fun a => Fin.ext ?_)
  match a with
  | ⟨0, _⟩ => show win0_0.index t (0 : Fin 2) * 2000 + 1 * (y 0).val = (i 0).val; omega
  | ⟨1, _⟩ => show win0_0.index t (1 : Fin 2) * 8 + 1 * (y 1).val = (i 1).val; omega

/-- The block of W1 at any point is W1. -/
theorem read_w (c : Dev nD) (t : Fin cfg0.N) (y : S8x32.Idx) (i : S8x32.Idx)
    (h0 : (i 0).val = (y 0).val) (h1 : (i 1).val = (y 1).val) :
    iblk0 V c 1 t y = V c main_arg2 i := by
  obtain ⟨-, -, e2, e3, -⟩ := blockAt t
  show V c main_arg2 (((cfg0.win 1).blk t).view.emb y) = V c main_arg2 i
  refine congrArg (V c main_arg2) (funext fun a => Fin.ext ?_)
  match a with
  | ⟨0, _⟩ => show win0_1.index t (0 : Fin 2) * 8 + 1 * (y 0).val = (i 0).val; omega
  | ⟨1, _⟩ => show win0_1.index t (1 : Fin 2) * 32 + 1 * (y 1).val = (i 1).val; omega

/-- What point `t` writes back is block `t` of the reference's product x · W1. -/
theorem flushed (c : Dev nD) (t : Fin cfg0.N) :
    (dat0 V c).flushed 2 t = ((cfg0.win 2).blk t).view.read (Elt Ideal)
      (Cert.ReferenceIdeal.ReadP.val_main_v32 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x8) hz, View.ld_unit_zero (S := S8x32) hz]
  obtain ⟨-, -, -, -, e4, e5⟩ := blockAt t
  funext j
  show k0_pay1 (F := Ideal) (iblk0 V c 0 t) (iblk0 V c 1 t) j
    = Cert.ReferenceIdeal.ReadP.val_main_v32 (F := Ideal) (V c main_arg0) (V c main_arg2) (((cfg0.win 2).blk t).view.emb j)
  refine (Products.payA_apply (iblk0 V c 0 t) (iblk0 V c 1 t) j).trans ?_
  refine Eq.trans ?_ (Cert.ReferenceIdeal.ReadP.val_main_v32_apply (V c main_arg0) (V c main_arg2) (((cfg0.win 2).blk t).view.emb j)).symm
  refine Finset.sum_congr rfl fun k _ => ?_
  rw [read_x V c t (Products.rowA j k) (Cert.ReferenceIdeal.ReadP.lidx_main_v32 (((cfg0.win 2).blk t).view.emb j) k)
      (by show win0_2.index t (0 : Fin 2) * 2000 + 1 * (j 0).val = t.val * 2000 + (j 0).val; omega) rfl,
    read_w V c t (Products.colA j k) (Cert.ReferenceIdeal.ReadP.ridx_main_v32 (((cfg0.win 2).blk t).view.emb j) k)
      rfl (by show win0_2.index t (1 : Fin 2) * 32 + 1 * (j 1).val = (j 1).val; omega)]

/-- An index of the result lies in point `t`'s block iff each coordinate is in the block's range on its axis. -/
theorem mem_blk (t : Fin cfg0.N) (i : S100000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v32).slice (win0_2.rect t)).set ↔ _
  rw [View.set_slice_whole, Rect.mem_set_unit]
  exact Iff.rfl

/-- Every row of the result is written: row r by the point r / 2000. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have ht : (i 0).val / 2000 < cfg0.N := by rw [show cfg0.N = 50 from N_0]; omega
  refine ⟨⟨(i 0).val / 2000, ht⟩, flush0_2 _, ?_⟩
  rw [mem_blk]
  obtain ⟨-, -, -, -, e4, e5⟩ := blockAt ⟨(i 0).val / 2000, ht⟩
  have e4' : win0_2.index ⟨(i 0).val / 2000, ht⟩ (0 : Fin 2) = (i 0).val / 2000 := e4
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 32 ≤ (i 1).val ∧ (i 1).val < win0_2.index ⟨(i 0).val / 2000, ht⟩ (1 : Fin 2) * 32 + 32; omega

/-- After the region the result array is the reference's product of the region's two input arrays. -/
theorem final (c : Dev nD) :
    (dat0 V c).arrAt 2 cfg0.N = Cert.ReferenceIdeal.ReadP.val_main_v32 (F := Ideal) (V c main_arg0) (V c main_arg2) :=
  (dat0 V c).arrAt_eq_of_cover 2 _ (fun t _ => flushed V c t) cover

end Cert.KernelIdeal.LayerA

end
-- ==== Proof.LayerB.lean ====
/-
  The second layer, block by block, is the reference's second projection.

  The second kernel reads, at grid point t, rows 2000·t … of the first aggregation a, the bias row b1 (as a 1 × 32 array)
  and the whole of W2, and writes max(a + b1, 0) · W2 into the same rows of its result. The reference adds the bias
  broadcast over all 100000 rows, clamps at zero and multiplies by W2 in one step. At row r = 2000·t + y, column n, both
  are the sum over the 32 hidden features k of max(a(r, k) + b1(k), 0) · W2(k, n): the same terms in the same order of
  factors, so no law of the extended reals beyond reading both sides at an index is needed. The 50 row blocks tile the result.
-/
import proofs.«132305_j60670708023801_1_alg».proof.Proof.Gen.KernelIdeal.Frame
import proofs.«132305_j60670708023801_1_alg».proof.Proof.RefRead
import proofs.«132305_j60670708023801_1_alg».proof.Proof.Products

set_option maxRecDepth 16384

noncomputable section

namespace Cert.KernelIdeal.LayerB

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the node-row windows at block row `t`, bias and weights at the origin. -/
theorem blockAt : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `y` of the block of the aggregation at point `t` is its row 2000·t + y. -/
theorem read_a (c : Dev nD) (t : Fin cfg1.N) (y : S2000x32.Idx) (i : S100000x32.Idx)
    (h0 : (i 0).val = t.val * 2000 + (y 0).val) (h1 : (i 1).val = (y 1).val) :
    iblk1 V c 0 t y = V c main_v45 i := by
  obtain ⟨e0, e1, -⟩ := blockAt t
  show V c main_v45 (((cfg1.win 0).blk t).view.emb y) = V c main_v45 i
  refine congrArg (V c main_v45) (funext fun a => Fin.ext ?_)
  match a with
  | ⟨0, _⟩ => show win1_0.index t (0 : Fin 2) * 2000 + 1 * (y 0).val = (i 0).val; omega
  | ⟨1, _⟩ => show win1_0.index t (1 : Fin 2) * 32 + 1 * (y 1).val = (i 1).val; omega

/-- The block of the bias row at any point is the bias row. -/
theorem read_b (c : Dev nD) (t : Fin cfg1.N) (y : S1x32.Idx) (i : S1x32.Idx)
    (h0 : (i 0).val = (y 0).val) (h1 : (i 1).val = (y 1).val) :
    iblk1 V c 1 t y = V c main_v46 i := by
  obtain ⟨-, -, e2, e3, -⟩ := blockAt t
  show V c main_v46 (((cfg1.win 1).blk t).view.emb y) = V c main_v46 i
  refine congrArg (V c main_v46) (funext fun a => Fin.ext ?_)
  match a with
  | ⟨0, _⟩ => show win1_1.index t (0 : Fin 2) * 1 + 1 * (y 0).val = (i 0).val; omega
  | ⟨1, _⟩ => show win1_1.index t (1 : Fin 2) * 32 + 1 * (y 1).val = (i 1).val; omega

/-- The block of W2 at any point is W2. -/
theorem read_w (c : Dev nD) (t : Fin cfg1.N) (y : S32x32.Idx) (i : S32x32.Idx)
    (h0 : (i 0).val = (y 0).val) (h1 : (i 1).val = (y 1).val) :
    iblk1 V c 2 t y = V c main_arg4 i := by
  obtain ⟨-, -, -, -, e4, e5, -⟩ := blockAt t
  show V c main_arg4 (((cfg1.win 2).blk t).view.emb y) = V c main_arg4 i
  refine congrArg (V c main_arg4) (funext fun a => Fin.ext ?_)
  match a with
  | ⟨0, _⟩ => show win1_2.index t (0 : Fin 2) * 32 + 1 * (y 0).val = (i 0).val; omega
  | ⟨1, _⟩ => show win1_2.index t (1 : Fin 2) * 32 + 1 * (y 1).val = (i 1).val; omega

/-- What point `t` writes back is block `t` of any array `G` that, index by index, is the clamped biased rows of
    the region's first input times its third: the sum over the 32 hidden features of max(A(r, k) + B(0, k), 0) · W(k, n). -/
theorem flushed (c : Dev nD) (t : Fin cfg1.N)
    (G : (⟨Cert.ReferenceIdeal.S100000x32, .f32⟩ : BufTy).Contents (Elt Ideal)) (A : (⟨Cert.ReferenceIdeal.S100000x32, .f32⟩ : BufTy).Contents (Elt Ideal)) (B : (⟨Cert.ReferenceIdeal.S1x32, .f32⟩ : BufTy).Contents (Elt Ideal)) (W : (⟨Cert.ReferenceIdeal.S32x32, .f32⟩ : BufTy).Contents (Elt Ideal))
    (hA : V c main_v45 = A) (hB : V c main_v46 = B) (hW : V c main_arg4 = W)
    (hG : ∀ i : Cert.ReferenceIdeal.S100000x32.Idx, G i = ∑ k : Fin 32, max (A (Cert.ReferenceIdeal.ReadP.lidx_main_v50 i k) + B (Cert.ReferenceIdeal.ReadP.idx_main_v47 (Cert.ReferenceIdeal.ReadP.lidx_main_v50 i k))) (0 : EReal)
        * W (Cert.ReferenceIdeal.ReadP.ridx_main_v50 i k)) :
    (dat1 V c).flushed 3 t = ((cfg1.win 3).blk t).view.read (Elt Ideal) G := by
  show (cfg1.win 3).cut (grid1.coords t) ((dat1 V c).after 3 t) = _
  rw [after1_3]
  unfold out1_3
  rw [View.canon_unit_zero hz]
  simp only [View.ld_unit_zero (S := S2000x32) hz, View.ld_unit_zero (S := S1x32) hz, View.ld_unit_zero (S := S32x32) hz]
  obtain ⟨-, -, -, -, -, -, e6, e7⟩ := blockAt t
  funext j
  show k1_pay1 (F := Ideal) (iblk1 V c 0 t) (iblk1 V c 1 t) (iblk1 V c 2 t) j = G (((cfg1.win 3).blk t).view.emb j)
  refine (Products.payB_apply (iblk1 V c 0 t) (iblk1 V c 1 t) (iblk1 V c 2 t) j).trans ?_
  refine Eq.trans ?_ (hG (((cfg1.win 3).blk t).view.emb j)).symm
  refine Finset.sum_congr rfl fun k _ => ?_
  rw [read_a V c t (Products.rowB j k) (Cert.ReferenceIdeal.ReadP.lidx_main_v50 (((cfg1.win 3).blk t).view.emb j) k)
      (by show win1_3.index t (0 : Fin 2) * 2000 + 1 * (j 0).val = t.val * 2000 + (j 0).val; omega) rfl,
    read_b V c t (Products.biasAt k) (Cert.ReferenceIdeal.ReadP.idx_main_v47 (Cert.ReferenceIdeal.ReadP.lidx_main_v50 (((cfg1.win 3).blk t).view.emb j) k)) rfl rfl,
    read_w V c t (Products.colB j k) (Cert.ReferenceIdeal.ReadP.ridx_main_v50 (((cfg1.win 3).blk t).view.emb j) k)
      rfl (by show win1_3.index t (1 : Fin 2) * 32 + 1 * (j 1).val = (j 1).val; omega),
    hA, hB, hW]

/-- An index of the result lies in point `t`'s block iff each coordinate is in the block's range on its axis. -/
theorem mem_blk (t : Fin cfg1.N) (i : S100000x32.Idx) :
    i ∈ ((cfg1.win 3).blk t).view.set ↔ ∀ a : Fin 2, win1_3.index t a * S2000x32.size a ≤ (i a).val ∧ (i a).val < win1_3.index t a * S2000x32.size a + S2000x32.size a := by
  show i ∈ ((View.whole main_v47).slice (win1_3.rect t)).set ↔ _
  rw [View.set_slice_whole, Rect.mem_set_unit]
  exact Iff.rfl

/-- Every row of the result is written: row r by the point r / 2000. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have ht : (i 0).val / 2000 < cfg1.N := by rw [show cfg1.N = 50 from N_1]; omega
  refine ⟨⟨(i 0).val / 2000, ht⟩, flush1_3 _, ?_⟩
  rw [mem_blk]
  have e := blockAt ⟨(i 0).val / 2000, ht⟩
  have eo0 : win1_3.index ⟨(i 0).val / 2000, ht⟩ (0 : Fin 2) = (i 0).val / 2000 := e.2.2.2.2.2.2.1
  have eo1 : win1_3.index ⟨(i 0).val / 2000, ht⟩ (1 : Fin 2) = 0 := e.2.2.2.2.2.2.2
  intro a
  match a with
  | ⟨0, _⟩ => show win1_3.index ⟨(i 0).val / 2000, ht⟩ (0 : Fin 2) * 2000 ≤ (i 0).val ∧ (i 0).val < win1_3.index ⟨(i 0).val / 2000, ht⟩ (0 : Fin 2) * 2000 + 2000; omega
  | ⟨1, _⟩ => show win1_3.index ⟨(i 0).val / 2000, ht⟩ (1 : Fin 2) * 32 ≤ (i 1).val ∧ (i 1).val < win1_3.index ⟨(i 0).val / 2000, ht⟩ (1 : Fin 2) * 32 + 32; omega

/-- After the region the result array is that array `G`. -/
theorem final (c : Dev nD)
    (G : (⟨Cert.ReferenceIdeal.S100000x32, .f32⟩ : BufTy).Contents (Elt Ideal)) (A : (⟨Cert.ReferenceIdeal.S100000x32, .f32⟩ : BufTy).Contents (Elt Ideal)) (B : (⟨Cert.ReferenceIdeal.S1x32, .f32⟩ : BufTy).Contents (Elt Ideal)) (W : (⟨Cert.ReferenceIdeal.S32x32, .f32⟩ : BufTy).Contents (Elt Ideal))
    (hA : V c main_v45 = A) (hB : V c main_v46 = B) (hW : V c main_arg4 = W)
    (hG : ∀ i : Cert.ReferenceIdeal.S100000x32.Idx, G i = ∑ k : Fin 32, max (A (Cert.ReferenceIdeal.ReadP.lidx_main_v50 i k) + B (Cert.ReferenceIdeal.ReadP.idx_main_v47 (Cert.ReferenceIdeal.ReadP.lidx_main_v50 i k))) (0 : EReal)
        * W (Cert.ReferenceIdeal.ReadP.ridx_main_v50 i k)) :
    (dat1 V c).arrAt 3 cfg1.N = G :=
  (dat1 V c).arrAt_eq_of_cover 3 G (fun t _ => flushed V c t G A B W hA hB hW hG) cover

end Cert.KernelIdeal.LayerB

end
-- ==== Proof.LayerC.lean ====
/-
  The third layer, block by block, is the reference's output.

  The third kernel reads, at grid point t, rows 2000·t … of the second aggregation a, the bias row b2 (as 1 × 32), the
  weight column Wf and the output bias bf (as 1 × 1), and writes max(a + b2, 0) · Wf + bf into the same rows of the
  one-column result. The reference clamps the biased aggregation, multiplies by Wf and adds bf broadcast down the rows.
  At row r = 2000·t + y both are (the sum over the 32 hidden features k of max(a(r, k) + b2(k), 0) · Wf(k, 0)) + bf,
  with the product on the left of the sum on both sides. The 50 row blocks tile the result.
-/
import proofs.«132305_j60670708023801_1_alg».proof.Proof.Gen.KernelIdeal.Frame
import proofs.«132305_j60670708023801_1_alg».proof.Proof.RefRead
import proofs.«132305_j60670708023801_1_alg».proof.Proof.Products

set_option maxRecDepth 16384

noncomputable section

namespace Cert.KernelIdeal.LayerC

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the node-row windows at block row `t`, biases and weights at the origin. -/
theorem blockAt : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `y` of the block of the aggregation at point `t` is its row 2000·t + y. -/
theorem read_a (c : Dev nD) (t : Fin cfg2.N) (y : S2000x32.Idx) (i : S100000x32.Idx)
    (h0 : (i 0).val = t.val * 2000 + (y 0).val) (h1 : (i 1).val = (y 1).val) :
    iblk2 V c 0 t y = V c main_v60 i := by
  obtain ⟨e0, e1, -⟩ := blockAt t
  show V c main_v60 (((cfg2.win 0).blk t).view.emb y) = V c main_v60 i
  refine congrArg (V c main_v60) (funext fun a => Fin.ext ?_)
  match a with
  | ⟨0, _⟩ => show win2_0.index t (0 : Fin 2) * 2000 + 1 * (y 0).val = (i 0).val; omega
  | ⟨1, _⟩ => show win2_0.index t (1 : Fin 2) * 32 + 1 * (y 1).val = (i 1).val; omega

/-- The block of the bias row at any point is the bias row. -/
theorem read_b (c : Dev nD) (t : Fin cfg2.N) (y : S1x32.Idx) (i : S1x32.Idx)
    (h0 : (i 0).val = (y 0).val) (h1 : (i 1).val = (y 1).val) :
    iblk2 V c 1 t y = V c main_v61 i := by
  obtain ⟨-, -, e2, e3, -⟩ := blockAt t
  show V c main_v61 (((cfg2.win 1).blk t).view.emb y) = V c main_v61 i
  refine congrArg (V c main_v61) (funext fun a => Fin.ext ?_)
  match a with
  | ⟨0, _⟩ => show win2_1.index t (0 : Fin 2) * 1 + 1 * (y 0).val = (i 0).val; omega
  | ⟨1, _⟩ => show win2_1.index t (1 : Fin 2) * 32 + 1 * (y 1).val = (i 1).val; omega

/-- The block of Wf at any point is Wf. -/
theorem read_w (c : Dev nD) (t : Fin cfg2.N) (y : S32x1.Idx) (i : S32x1.Idx)
    (h0 : (i 0).val = (y 0).val) (h1 : (i 1).val = (y 1).val) :
    iblk2 V c 2 t y = V c main_arg6 i := by
  obtain ⟨-, -, -, -, e4, e5, -⟩ := blockAt t
  show V c main_arg6 (((cfg2.win 2).blk t).view.emb y) = V c main_arg6 i
  refine congrArg (V c main_arg6) (funext fun a => Fin.ext ?_)
  match a with
  | ⟨0, _⟩ => show win2_2.index t (0 : Fin 2) * 32 + 1 * (y 0).val = (i 0).val; omega
  | ⟨1, _⟩ => show win2_2.index t (1 : Fin 2) * 1 + 1 * (y 1).val = (i 1).val; omega

/-- The block of the output bias at any point is the output bias. -/
theorem read_o (c : Dev nD) (t : Fin cfg2.N) (y : S1x1.Idx) (i : S1x1.Idx)
    (h0 : (i 0).val = (y 0).val) (h1 : (i 1).val = (y 1).val) :
    iblk2 V c 3 t y = V c main_v62 i := by
  obtain ⟨-, -, -, -, -, -, e6, e7, -⟩ := blockAt t
  show V c main_v62 (((cfg2.win 3).blk t).view.emb y) = V c main_v62 i
  refine congrArg (V c main_v62) (funext fun a => Fin.ext ?_)
  match a with
  | ⟨0, _⟩ => show win2_3.index t (0 : Fin 2) * 1 + 1 * (y 0).val = (i 0).val; omega
  | ⟨1, _⟩ => show win2_3.index t (1 : Fin 2) * 1 + 1 * (y 1).val = (i 1).val; omega

/-- What point `t` writes back is block `t` of any array `G` that, index by index, is the clamped biased rows of the
    region's first input times its third, plus its fourth: (the sum over the 32 hidden features of
    max(A(r, k) + B(0, k), 0) · W(k, 0)) + O(0, 0). -/
theorem flushed (c : Dev nD) (t : Fin cfg2.N)
    (G : (⟨Cert.ReferenceIdeal.S100000x1, .f32⟩ : BufTy).Contents (Elt Ideal)) (A : (⟨Cert.ReferenceIdeal.S100000x32, .f32⟩ : BufTy).Contents (Elt Ideal)) (B : (⟨Cert.ReferenceIdeal.S1x32, .f32⟩ : BufTy).Contents (Elt Ideal)) (W : (⟨Cert.ReferenceIdeal.S32x1, .f32⟩ : BufTy).Contents (Elt Ideal)) (O : (⟨Cert.ReferenceIdeal.S1x1, .f32⟩ : BufTy).Contents (Elt Ideal))
    (hA : V c main_v60 = A) (hB : V c main_v61 = B) (hW : V c main_arg6 = W) (hO : V c main_v62 = O)
    (hG : ∀ i : Cert.ReferenceIdeal.S100000x1.Idx, G i = (∑ k : Fin 32, max (A (Cert.ReferenceIdeal.ReadP.lidx_main_v68 i k) + B (Cert.ReferenceIdeal.ReadP.idx_main_v65 (Cert.ReferenceIdeal.ReadP.lidx_main_v68 i k))) (0 : EReal)
        * W (Cert.ReferenceIdeal.ReadP.ridx_main_v68 i k)) + O (Cert.ReferenceIdeal.ReadP.idx_main_v70 i)) :
    (dat2 V c).flushed 4 t = ((cfg2.win 4).blk t).view.read (Elt Ideal) G := by
  show (cfg2.win 4).cut (grid2.coords t) ((dat2 V c).after 4 t) = _
  rw [after2_4]
  unfold out2_4
  rw [View.canon_unit_zero hz]
  simp only [View.ld_unit_zero (S := S2000x32) hz, View.ld_unit_zero (S := S1x32) hz, View.ld_unit_zero (S := S32x1) hz, View.ld_unit_zero (S := S1x1) hz]
  obtain ⟨-, -, -, -, -, -, -, -, e8, e9⟩ := blockAt t
  funext j
  show k2_pay1 (F := Ideal) (iblk2 V c 0 t) (iblk2 V c 1 t) (iblk2 V c 2 t) (iblk2 V c 3 t) j = G (((cfg2.win 4).blk t).view.emb j)
  refine (Products.payC_apply (iblk2 V c 0 t) (iblk2 V c 1 t) (iblk2 V c 2 t) (iblk2 V c 3 t) j).trans ?_
  refine Eq.trans ?_ (hG (((cfg2.win 4).blk t).view.emb j)).symm
  rw [read_o V c t Products.biasOut (Cert.ReferenceIdeal.ReadP.idx_main_v70 (((cfg2.win 4).blk t).view.emb j)) rfl rfl, hO]
  refine congrArg (fun s : EReal => s + O (Cert.ReferenceIdeal.ReadP.idx_main_v70 (((cfg2.win 4).blk t).view.emb j))) ?_
  refine Finset.sum_congr rfl fun k _ => ?_
  rw [read_a V c t (Products.rowC j k) (Cert.ReferenceIdeal.ReadP.lidx_main_v68 (((cfg2.win 4).blk t).view.emb j) k)
      (by show win2_4.index t (0 : Fin 2) * 2000 + 1 * (j 0).val = t.val * 2000 + (j 0).val; omega) rfl,
    read_b V c t (Products.biasAt k) (Cert.ReferenceIdeal.ReadP.idx_main_v65 (Cert.ReferenceIdeal.ReadP.lidx_main_v68 (((cfg2.win 4).blk t).view.emb j) k)) rfl rfl,
    read_w V c t (Products.colC j k) (Cert.ReferenceIdeal.ReadP.ridx_main_v68 (((cfg2.win 4).blk t).view.emb j) k)
      rfl (by show win2_4.index t (1 : Fin 2) * 1 + 1 * (j 1).val = (j 1).val; omega),
    hA, hB, hW]

/-- An index of the result lies in point `t`'s block iff each coordinate is in the block's range on its axis. -/
theorem mem_blk (t : Fin cfg2.N) (i : S100000x1.Idx) :
    i ∈ ((cfg2.win 4).blk t).view.set ↔ ∀ a : Fin 2, win2_4.index t a * S2000x1.size a ≤ (i a).val ∧ (i a).val < win2_4.index t a * S2000x1.size a + S2000x1.size a := by
  show i ∈ ((View.whole main_v63).slice (win2_4.rect t)).set ↔ _
  rw [View.set_slice_whole, Rect.mem_set_unit]
  exact Iff.rfl

/-- Every row of the result is written: row r by the point r / 2000. -/
theorem cover (i : S100000x1.Idx) :
    ∃ t : Fin cfg2.N, (cfg2.win 4).flush t = true ∧ i ∈ ((cfg2.win 4).blk t).view.set := by
  have hi0 : (i 0).val < 100000 := (i 0).isLt
  have hi1 : (i 1).val < 1 := (i 1).isLt
  have ht : (i 0).val / 2000 < cfg2.N := by rw [show cfg2.N = 50 from N_2]; omega
  refine ⟨⟨(i 0).val / 2000, ht⟩, flush2_4 _, ?_⟩
  rw [mem_blk]
  have e := blockAt ⟨(i 0).val / 2000, ht⟩
  have eo0 : win2_4.index ⟨(i 0).val / 2000, ht⟩ (0 : Fin 2) = (i 0).val / 2000 := e.2.2.2.2.2.2.2.2.1
  have eo1 : win2_4.index ⟨(i 0).val / 2000, ht⟩ (1 : Fin 2) = 0 := e.2.2.2.2.2.2.2.2.2
  intro a
  match a with
  | ⟨0, _⟩ => show win2_4.index ⟨(i 0).val / 2000, ht⟩ (0 : Fin 2) * 2000 ≤ (i 0).val ∧ (i 0).val < win2_4.index ⟨(i 0).val / 2000, ht⟩ (0 : Fin 2) * 2000 + 2000; omega
  | ⟨1, _⟩ => show win2_4.index ⟨(i 0).val / 2000, ht⟩ (1 : Fin 2) * 1 ≤ (i 1).val ∧ (i 1).val < win2_4.index ⟨(i 0).val / 2000, ht⟩ (1 : Fin 2) * 1 + 1; omega

/-- After the region the result array is that array `G`. -/
theorem final (c : Dev nD)
    (G : (⟨Cert.ReferenceIdeal.S100000x1, .f32⟩ : BufTy).Contents (Elt Ideal)) (A : (⟨Cert.ReferenceIdeal.S100000x32, .f32⟩ : BufTy).Contents (Elt Ideal)) (B : (⟨Cert.ReferenceIdeal.S1x32, .f32⟩ : BufTy).Contents (Elt Ideal)) (W : (⟨Cert.ReferenceIdeal.S32x1, .f32⟩ : BufTy).Contents (Elt Ideal)) (O : (⟨Cert.ReferenceIdeal.S1x1, .f32⟩ : BufTy).Contents (Elt Ideal))
    (hA : V c main_v60 = A) (hB : V c main_v61 = B) (hW : V c main_arg6 = W) (hO : V c main_v62 = O)
    (hG : ∀ i : Cert.ReferenceIdeal.S100000x1.Idx, G i = (∑ k : Fin 32, max (A (Cert.ReferenceIdeal.ReadP.lidx_main_v68 i k) + B (Cert.ReferenceIdeal.ReadP.idx_main_v65 (Cert.ReferenceIdeal.ReadP.lidx_main_v68 i k))) (0 : EReal)
        * W (Cert.ReferenceIdeal.ReadP.ridx_main_v68 i k)) + O (Cert.ReferenceIdeal.ReadP.idx_main_v70 i)) :
    (dat2 V c).arrAt 4 cfg2.N = G :=
  (dat2 V c).arrAt_eq_of_cover 4 G (fun t _ => flushed V c t G A B W O hA hB hW hO hG) cover

end Cert.KernelIdeal.LayerC

end
-- ==== Proof.Chain.lean ====
/-
  From the launch to the result: the value of the program's result array.

  Reading the run boundary by boundary. The first kernel leaves x · W1 (the reference's first projection); the host
  steps aggregate it over the edges; the second kernel leaves max(a + b1, 0) · W2 of that aggregation (the reference's
  second projection); the host steps aggregate again; the third kernel leaves max(a' + b2, 0) · Wf + bf. Every buffer
  these steps read beside the one just computed — the index vectors, the edge weights, the weights and biases — is
  carried across the kernels and host steps in between, which do not write it. So the result array ends at the
  reference's own final stage of the launch arguments.
-/
import proofs.«132305_j60670708023801_1_alg».proof.Proof.Boundary
import proofs.«132305_j60670708023801_1_alg».proof.Proof.HostSteps
import proofs.«132305_j60670708023801_1_alg».proof.Proof.RefLayers
import proofs.«132305_j60670708023801_1_alg».proof.Proof.LayerA
import proofs.«132305_j60670708023801_1_alg».proof.Proof.LayerB
import proofs.«132305_j60670708023801_1_alg».proof.Proof.LayerC

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## After the first kernel -/

/-- The first kernel's result is the reference's first projection of the launch arguments. -/
theorem W4_v32 : W4 m ρ c (Proc.devRef .tc main_v32) = Cert.ReferenceIdeal.ReadP.val_main_v32 (F := Ideal) (m ((c : Thread nD τ).loc main_arg0)) (m ((c : Thread nD τ).loc main_arg2)) := by
  refine (W4_arr m ρ c 2).trans ((LayerA.final (V3 m ρ) c).trans ?_)
  show Cert.ReferenceIdeal.ReadP.val_main_v32 (F := Ideal) (W3 m ρ c (Proc.devRef .tc main_arg0)) (W3 m ρ c (Proc.devRef .tc main_arg2)) = _
  rw [Boundary.W3_arg0, Boundary.W3_arg2]

theorem W4_v3 : W4 m ρ c (Proc.devRef .tc main_v3) = Cert.ReferenceIdeal.ReadP.val_main_v3 (F := Ideal) (m ((c : Thread nD τ).loc main_arg1)) :=
  (W4_of_ne m ρ c main_v3 (by decide)).trans (Boundary.W3_v3 m ρ c)
theorem W4_v6 : W4 m ρ c (Proc.devRef .tc main_v6) = Cert.ReferenceIdeal.ReadP.val_main_v6 (F := Ideal) (m ((c : Thread nD τ).loc main_arg1)) :=
  (W4_of_ne m ρ c main_v6 (by decide)).trans (Boundary.W3_v6 m ρ c)
theorem W4_v31 : W4 m ρ c (Proc.devRef .tc main_v31) = Cert.ReferenceIdeal.ReadP.val_main_v31 (F := Ideal) (m ((c : Thread nD τ).loc main_arg1)) :=
  (W4_of_ne m ρ c main_v31 (by decide)).trans (Boundary.W3_v31 m ρ c)
theorem W4_arg3 : W4 m ρ c (Proc.devRef .tc main_arg3) = (m ((c : Thread nD τ).loc main_arg3)) :=
  (W4_of_ne m ρ c main_arg3 (by decide)).trans (Boundary.W3_arg3 m ρ c)
theorem W4_arg4 : W4 m ρ c (Proc.devRef .tc main_arg4) = (m ((c : Thread nD τ).loc main_arg4)) :=
  (W4_of_ne m ρ c main_arg4 (by decide)).trans (Boundary.W3_arg4 m ρ c)
theorem W4_arg5 : W4 m ρ c (Proc.devRef .tc main_arg5) = (m ((c : Thread nD τ).loc main_arg5)) :=
  (W4_of_ne m ρ c main_arg5 (by decide)).trans (Boundary.W3_arg5 m ρ c)
theorem W4_arg6 : W4 m ρ c (Proc.devRef .tc main_arg6) = (m ((c : Thread nD τ).loc main_arg6)) :=
  (W4_of_ne m ρ c main_arg6 (by decide)).trans (Boundary.W3_arg6 m ρ c)
theorem W4_arg7 : W4 m ρ c (Proc.devRef .tc main_arg7) = (m ((c : Thread nD τ).loc main_arg7)) :=
  (W4_of_ne m ρ c main_arg7 (by decide)).trans (Boundary.W3_arg7 m ρ c)

/-! ## Before the second kernel -/

theorem W5_v45 : W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg2)) :=
  HostSteps.first_aggregation (W4 m ρ c) _ _ _ (W4_v32 m ρ c) (W4_v3 m ρ c) (W4_v6 m ρ c) (W4_v31 m ρ c)
theorem W5_v46 : W5 m ρ c (Proc.devRef .tc main_v46) = Cert.ReferenceIdeal.ReadP.val_main_v46 (F := Ideal) (m ((c : Thread nD τ).loc main_arg3)) :=
  HostSteps.first_bias (W4 m ρ c) _ (W4_arg3 m ρ c)
theorem W5_v3 : W5 m ρ c (Proc.devRef .tc main_v3) = Cert.ReferenceIdeal.ReadP.val_main_v3 (F := Ideal) (m ((c : Thread nD τ).loc main_arg1)) :=
  (StableHlo.after_of_forall_not_mem (b := Proc.devRef .tc main_v3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W4 m ρ c) (Proc.devRef .tc main_v3) = W4 m ρ c (Proc.devRef .tc main_v3)).trans (W4_v3 m ρ c)
theorem W5_v6 : W5 m ρ c (Proc.devRef .tc main_v6) = Cert.ReferenceIdeal.ReadP.val_main_v6 (F := Ideal) (m ((c : Thread nD τ).loc main_arg1)) :=
  (StableHlo.after_of_forall_not_mem (b := Proc.devRef .tc main_v6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W4 m ρ c) (Proc.devRef .tc main_v6) = W4 m ρ c (Proc.devRef .tc main_v6)).trans (W4_v6 m ρ c)
theorem W5_v31 : W5 m ρ c (Proc.devRef .tc main_v31) = Cert.ReferenceIdeal.ReadP.val_main_v31 (F := Ideal) (m ((c : Thread nD τ).loc main_arg1)) :=
  (StableHlo.after_of_forall_not_mem (b := Proc.devRef .tc main_v31) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W4 m ρ c) (Proc.devRef .tc main_v31) = W4 m ρ c (Proc.devRef .tc main_v31)).trans (W4_v31 m ρ c)
theorem W5_arg4 : W5 m ρ c (Proc.devRef .tc main_arg4) = (m ((c : Thread nD τ).loc main_arg4)) :=
  (StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W4 m ρ c) (Proc.devRef .tc main_arg4) = W4 m ρ c (Proc.devRef .tc main_arg4)).trans (W4_arg4 m ρ c)
theorem W5_arg5 : W5 m ρ c (Proc.devRef .tc main_arg5) = (m ((c : Thread nD τ).loc main_arg5)) :=
  (StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W4 m ρ c) (Proc.devRef .tc main_arg5) = W4 m ρ c (Proc.devRef .tc main_arg5)).trans (W4_arg5 m ρ c)
theorem W5_arg6 : W5 m ρ c (Proc.devRef .tc main_arg6) = (m ((c : Thread nD τ).loc main_arg6)) :=
  (StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W4 m ρ c) (Proc.devRef .tc main_arg6) = W4 m ρ c (Proc.devRef .tc main_arg6)).trans (W4_arg6 m ρ c)
theorem W5_arg7 : W5 m ρ c (Proc.devRef .tc main_arg7) = (m ((c : Thread nD τ).loc main_arg7)) :=
  (StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W4 m ρ c) (Proc.devRef .tc main_arg7) = W4 m ρ c (Proc.devRef .tc main_arg7)).trans (W4_arg7 m ρ c)

/-! ## After the second kernel -/

/-- The second kernel's result is the reference's second projection. -/
theorem W6_v47 : W6 m ρ c (Proc.devRef .tc main_v47)
    = Cert.ReferenceIdeal.ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans (LayerB.final (V5 m ρ) c _ _ _ _ (W5_v45 m ρ c) (W5_v46 m ρ c) (W5_arg4 m ρ c)
    (Cert.ReferenceIdeal.Layers.second_apply (m ((c : Thread nD τ).loc main_arg0)) (m ((c : Thread nD τ).loc main_arg1)) (m ((c : Thread nD τ).loc main_arg2)) (m ((c : Thread nD τ).loc main_arg3)) (m ((c : Thread nD τ).loc main_arg4))))

theorem W6_v3 : W6 m ρ c (Proc.devRef .tc main_v3) = Cert.ReferenceIdeal.ReadP.val_main_v3 (F := Ideal) (m ((c : Thread nD τ).loc main_arg1)) :=
  (W6_of_ne m ρ c main_v3 (by decide)).trans (W5_v3 m ρ c)
theorem W6_v6 : W6 m ρ c (Proc.devRef .tc main_v6) = Cert.ReferenceIdeal.ReadP.val_main_v6 (F := Ideal) (m ((c : Thread nD τ).loc main_arg1)) :=
  (W6_of_ne m ρ c main_v6 (by decide)).trans (W5_v6 m ρ c)
theorem W6_v31 : W6 m ρ c (Proc.devRef .tc main_v31) = Cert.ReferenceIdeal.ReadP.val_main_v31 (F := Ideal) (m ((c : Thread nD τ).loc main_arg1)) :=
  (W6_of_ne m ρ c main_v31 (by decide)).trans (W5_v31 m ρ c)
theorem W6_arg5 : W6 m ρ c (Proc.devRef .tc main_arg5) = (m ((c : Thread nD τ).loc main_arg5)) :=
  (W6_of_ne m ρ c main_arg5 (by decide)).trans (W5_arg5 m ρ c)
theorem W6_arg6 : W6 m ρ c (Proc.devRef .tc main_arg6) = (m ((c : Thread nD τ).loc main_arg6)) :=
  (W6_of_ne m ρ c main_arg6 (by decide)).trans (W5_arg6 m ρ c)
theorem W6_arg7 : W6 m ρ c (Proc.devRef .tc main_arg7) = (m ((c : Thread nD τ).loc main_arg7)) :=
  (W6_of_ne m ρ c main_arg7 (by decide)).trans (W5_arg7 m ρ c)

/-! ## Before the third kernel -/

theorem W7_v60 : W7 m ρ c (Proc.devRef .tc main_v60) = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  HostSteps.second_aggregation (W6 m ρ c) _ _ _ _ _ (W6_v47 m ρ c) (W6_v3 m ρ c) (W6_v6 m ρ c) (W6_v31 m ρ c)
theorem W7_v61 : W7 m ρ c (Proc.devRef .tc main_v61) = Cert.ReferenceIdeal.ReadP.val_main_v64 (F := Ideal) (m ((c : Thread nD τ).loc main_arg5)) :=
  HostSteps.second_bias (W6 m ρ c) _ (W6_arg5 m ρ c)
theorem W7_v62 : W7 m ρ c (Proc.devRef .tc main_v62) = Cert.ReferenceIdeal.ReadP.val_main_v69 (F := Ideal) (m ((c : Thread nD τ).loc main_arg7)) :=
  HostSteps.output_bias (W6 m ρ c) _ (W6_arg7 m ρ c)
theorem W7_arg6 : W7 m ρ c (Proc.devRef .tc main_arg6) = (m ((c : Thread nD τ).loc main_arg6)) :=
  (StableHlo.after_of_forall_not_mem (b := Proc.devRef .tc main_arg6) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps2 (W6 m ρ c) (Proc.devRef .tc main_arg6) = W6 m ρ c (Proc.devRef .tc main_arg6)).trans (W6_arg6 m ρ c)

/-! ## After the third kernel -/

/-- The program's result array ends at the reference's final stage of the launch arguments. -/
theorem result : W8 m ρ c (Proc.devRef .tc main_v63)
    = Cert.ReferenceIdeal.ReadP.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 4).trans (LayerC.final (V7 m ρ) c _ _ _ _ _ (W7_v60 m ρ c) (W7_v61 m ρ c) (W7_arg6 m ρ c) (W7_v62 m ρ c)
    (Cert.ReferenceIdeal.Layers.third_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))))

end Cert.KernelIdeal.Chain

end
-- ==== Proof.lean ====
/-
  A two-layer graph convolution with a linear head, in three kernels, against its one-piece reference.

  Both programs first build, from the edge list, the source and target vectors (every edge, then one self-loop per node),
  the in-degrees, and the symmetric edge weights d(src)^(-1/2) · d(dst)^(-1/2) — the same host steps in the same order.
  The reference then computes
      h1 = max(agg(x · W1) + b1, 0),   h2 = max(agg(h1 · W2) + b2, 0),   out = h2 · Wf + bf,
  where agg gathers rows at the sources, weights them and scatter-adds them at the targets. The program under proof
  moves the bias and the clamp of each layer into the kernel of the NEXT matrix product: its three kernels compute
  x · W1, max(a + b1, 0) · W2 and max(a' + b2, 0) · Wf + bf on blocks of 2000 node rows, with the two aggregations on
  the host in between. Over the extended reals each kernel's block is the matching block of the reference's stage —
  the same sum of the same products, term for term — and the 50 row blocks tile each result, so stage by stage the two
  programs hold the same arrays and the results agree. No law beyond reading both sides at an index is used, so the
  finiteness of the inputs is never opened.

  The three frames: the two kernel programs' are the generated frame certificates; the reference's is its run with the
  result dropped. The idealization rewrote nothing, so there is nothing to preserve.
-/
import proofs.«132305_j60670708023801_1_alg».proof.Defs
import proofs.«132305_j60670708023801_1_alg».proof.Proof.Gen.Kernel
import proofs.«132305_j60670708023801_1_alg».proof.Proof.Gen.Kernel.Frame
import proofs.«132305_j60670708023801_1_alg».proof.Proof.Gen.KernelIdeal
import proofs.«132305_j60670708023801_1_alg».proof.Proof.Gen.KernelIdeal.Frame
import proofs.«132305_j60670708023801_1_alg».proof.Proof.Gen.ReferenceIdeal
import proofs.«132305_j60670708023801_1_alg».proof.Proof.Gen.Pre_finite_inputs
import proofs.«132305_j60670708023801_1_alg».proof.Proof.NamedRun
import proofs.«132305_j60670708023801_1_alg».proof.Proof.RefRun
import proofs.«132305_j60670708023801_1_alg».proof.Proof.RefRead
import proofs.«132305_j60670708023801_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end with the reference's final stage of those arguments
    in their result arrays. -/
theorem algebraic : Cert.algebraic_KernelIdeal_ReferenceIdeal := by
  intro m ρ m' ρ' _ hagree
  refine ⟨fun c => Cert.ReferenceIdeal.ReadP.val_main_v71 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.Named.run_named m ρ)
  · refine (θ_run Cert.ReferenceIdeal.defs _ _).mono (fun r h c => ⟨?_, (h c).2⟩)
      (Cert.ReferenceIdeal.ValueP.run (F := Ideal) m' ρ')
    refine (h c).1.trans ((Cert.ReferenceIdeal.ReadP.val_main_v71_eq m' c).trans ?_)
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
